-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v28) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x128 : Shape := ⟨2, ![524288, 128]⟩
abbrev S524288 : Shape := ⟨1, ![524288]⟩
abbrev S100x128 : Shape := ⟨2, ![100, 128]⟩
abbrev S_ : Shape := ⟨0, ![]⟩

class Facts : Prop where
  bcast_S_S524288x128 : S_.BroadcastsInDim S524288x128 (![] : Fin 0 → Fin S524288x128.rank)
  reducesTo_S524288x128_S_d0_1 : S524288x128.ReducesTo [0, 1] S_
  h_S_ : 0 < S_.numel
  bcast_S_S100x128 : S_.BroadcastsInDim S100x128 (![] : Fin 0 → Fin S100x128.rank)
  reducesTo_S100x128_S_d0_1 : S100x128.ReducesTo [0, 1] S_
  bcast_S_S524288 : S_.BroadcastsInDim S524288 (![] : Fin 0 → Fin S524288.rank)
  reducesTo_S524288_S_d0 : S524288.ReducesTo [0] S_

variable [Facts]

def fn {F : FTy → Type} [FloatOps F] (main_arg0 : FVec F S524288x128 .f32) (main_arg1 : IVec S524288 32) (main_arg2 : FVec F S100x128 .f32) : IVec S_ 1 :=
  let main_v0 : FVec F S524288x128 .f32 := Host.absf main_arg0
  let main_cst : FVec F S_ .f32 := constant S_ .f32 0x7F800000#32
  let main_v1 : FVec F S524288x128 .f32 := broadcastInDim S524288x128 ![] bcast_S_S524288x128 main_cst
  let main_v2 : IVec S524288x128 1 := cmpf .olt main_v0 main_v1
  let main_c : IVec S_ 1 := constantI S_ 1 1#1
  let main_v3 : IVec S_ 1 := (fun x v => Host.reduce IntOp.andi x v reducesTo_S524288x128_S_d0_1 h_S_) main_v2 main_c
  let main_v4 : FVec F S100x128 .f32 := Host.absf main_arg2
  let main_cst_0 : FVec F S_ .f32 := constant S_ .f32 0x7F800000#32
  let main_v5 : FVec F S100x128 .f32 := broadcastInDim S100x128 ![] bcast_S_S100x128 main_cst_0
  let main_v6 : IVec S100x128 1 := cmpf .olt main_v4 main_v5
  let main_c_1 : IVec S_ 1 := constantI S_ 1 1#1
  let main_v7 : IVec S_ 1 := (fun x v => Host.reduce IntOp.andi x v reducesTo_S100x128_S_d0_1 h_S_) main_v6 main_c_1
  let main_v8 : IVec S_ 1 := andi main_v3 main_v7
  let main_c_2 : IVec S_ 32 := constantI S_ 32 0#32
  let main_v9 : IVec S524288 32 := broadcastInDim S524288 ![] bcast_S_S524288 main_c_2
  let main_v10 : IVec S524288 1 := cmpi .sge main_arg1 main_v9
  let main_c_3 : IVec S_ 1 := constantI S_ 1 1#1
  let main_v11 : IVec S_ 1 := (fun x v => Host.reduce IntOp.andi x v reducesTo_S524288_S_d0 h_S_) main_v10 main_c_3
  let main_v12 : IVec S_ 1 := andi main_v8 main_v11
  main_v12
-- ==== Kernel.lean ====
abbrev S524288x128 : Shape := ⟨2, ![524288, 128]⟩
abbrev S524288 : Shape := ⟨1, ![524288]⟩
abbrev S100x128 : Shape := ⟨2, ![100, 128]⟩
abbrev S_ : Shape := ⟨0, ![]⟩
abbrev S128x128 : Shape := ⟨2, ![128, 128]⟩
abbrev S1 : Shape := ⟨1, ![1]⟩
abbrev S4096x128 : Shape := ⟨2, ![4096, 128]⟩
abbrev S2x8x128 : Shape := ⟨3, ![2, 8, 128]⟩
abbrev S8192x128 : Shape := ⟨2, ![8192, 128]⟩
abbrev S64x128 : Shape := ⟨2, ![64, 128]⟩
abbrev S1x8x128 : Shape := ⟨3, ![1, 8, 128]⟩
abbrev S8x128 : Shape := ⟨2, ![8, 128]⟩
abbrev S1x1x128 : Shape := ⟨3, ![1, 1, 128]⟩
abbrev S64x128x1 : Shape := ⟨3, ![64, 128, 1]⟩
abbrev S64x128x128 : Shape := ⟨3, ![64, 128, 128]⟩
abbrev S8192 : Shape := ⟨1, ![8192]⟩
abbrev S8192x1 : Shape := ⟨2, ![8192, 1]⟩
abbrev S1x1 : Shape := ⟨2, ![1, 1]⟩
abbrev S2x1x1 : Shape := ⟨3, ![2, 1, 1]⟩
abbrev S2 : Shape := ⟨1, ![2]⟩
abbrev S100x1x128 : Shape := ⟨3, ![100, 1, 128]⟩
abbrev S1x100x128 : Shape := ⟨3, ![1, 100, 128]⟩
abbrev S100x100x128 : Shape := ⟨3, ![100, 100, 128]⟩
abbrev S100x100 : Shape := ⟨2, ![100, 100]⟩

abbrev nBuf : Space → Nat
  | .hbm => 59
  | .vmem => 8
  | .smem => 0
  | _ => 0

abbrev bufTy : (tb : Table) → Fin (tcTables nBuf tb) → BufTy
  | .hbm, ⟨0, _⟩ => ⟨S524288x128, .f32⟩
  | .hbm, ⟨1, _⟩ => ⟨S524288, .i32⟩
  | .hbm, ⟨2, _⟩ => ⟨S100x128, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S524288, .i32⟩
  | .hbm, ⟨7, _⟩ => ⟨S524288, .i32⟩
  | .hbm, ⟨8, _⟩ => ⟨S_, .i32⟩
  | .hbm, ⟨9, _⟩ => ⟨S524288, .i32⟩
  | .hbm, ⟨10, _⟩ => ⟨S524288, .i32⟩
  | .hbm, ⟨11, _⟩ => ⟨S_, .bf16⟩
  | .hbm, ⟨12, _⟩ => ⟨S128x128, .bf16⟩
  | .hbm, ⟨13, _⟩ => ⟨S100x128, .bf16⟩
  | .hbm, ⟨14, _⟩ => ⟨S_, .i32⟩
  | .hbm, ⟨15, _⟩ => ⟨S1, .i32⟩
  | .hbm, ⟨16, _⟩ => ⟨S128x128, .bf16⟩
  | .hbm, ⟨17, _⟩ => ⟨S4096x128, .i32⟩
  | .hbm, ⟨18, _⟩ => ⟨S2x8x128, .f32⟩
  | .hbm, ⟨19, _⟩ => ⟨S2x1x1, .f32⟩
  | .hbm, ⟨20, _⟩ => ⟨S2, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S100x1x128, .f32⟩
  | .hbm, ⟨26, _⟩ => ⟨S1x100x128, .f32⟩
  | .hbm, ⟨27, _⟩ => ⟨S100x100x128, .f32⟩
  | .hbm, ⟨28, _⟩ => ⟨S100x100x128, .f32⟩
  | .hbm, ⟨29, _⟩ => ⟨S100x100x128, .f32⟩
  | .hbm, ⟨30, _⟩ => ⟨S_, .f32⟩
  | .hbm, ⟨31, _⟩ => ⟨S100x100x128, .f32⟩
  | .hbm, ⟨32, _⟩ => ⟨S100x100x128, .f32⟩
  | .hbm, ⟨33, _⟩ => ⟨S100x100x128, .f32⟩
  | .hbm, ⟨34, _⟩ => ⟨S_, .f32⟩
  | .hbm, ⟨35, _⟩ => ⟨S100x100, .f32⟩
  | .hbm, ⟨36, _⟩ => ⟨S100x100, .f32⟩
  | .hbm, ⟨37, _⟩ => ⟨S_, .f32⟩
  | .hbm, ⟨38, _⟩ => ⟨S100x100, .f32⟩
  | .hbm, ⟨39, _⟩ => ⟨S100x100, .i32⟩
  | .hbm, ⟨40, _⟩ => ⟨S_, .i32⟩
  | .hbm, ⟨41, _⟩ => ⟨S100x100, .i32⟩
  | .hbm, ⟨42, _⟩ => ⟨S100x100, .i32⟩
  | .hbm, ⟨43, _⟩ => ⟨S100x100, .i32⟩
  | .hbm, ⟨44, _⟩ => ⟨S100x100, .i1⟩
  | .hbm, ⟨45, _⟩ => ⟨S_, .f32⟩
  | .hbm, ⟨46, _⟩ => ⟨S100x100, .f32⟩
  | .hbm, ⟨47, _⟩ => ⟨S100x100, .f32⟩
  | .hbm, ⟨48, _⟩ => ⟨S_, .f32⟩
  | .hbm, ⟨49, _⟩ => ⟨S100x100, .f32⟩
  | .hbm, ⟨50, _⟩ => ⟨S100x100, .f32⟩
  | .hbm, ⟨51, _⟩ => ⟨S_, .f32⟩
  | .hbm, ⟨52, _⟩ => ⟨S100x100, .f32⟩
  | .hbm, ⟨53, _⟩ => ⟨S100x100, .f32⟩
  | .hbm, ⟨54, _⟩ => ⟨S100x100, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S64x128, .i32⟩
  | .local _ .vmem, ⟨3, _⟩ => ⟨S64x128, .i32⟩
  | .local _ .vmem, ⟨4, _⟩ => ⟨S128x128, .bf16⟩
  | .local _ .vmem, ⟨5, _⟩ => ⟨S1x8x128, .f32⟩
  | .local _ .vmem, ⟨6, _⟩ => ⟨S1x8x128, .f32⟩
  | .local _ .vmem, ⟨7, _⟩ => ⟨S8x128, .f32⟩
  | _, _ => ⟨S524288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_c_1 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_5 : Ref sig .tc := ⟨.hbm, 34, rfl⟩
abbrev main_v19 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_call1_v0 : Ref sig .tc := ⟨.hbm, 39, rfl⟩
abbrev main_call1_c : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_cst : Ref sig .tc := ⟨.hbm, 45, rfl⟩
abbrev main_call1_v5 : Ref sig .tc := ⟨.hbm, 46, rfl⟩
abbrev main_v22 : Ref sig .tc := ⟨.hbm, 47, rfl⟩
abbrev main_cst_7 : Ref sig .tc := ⟨.hbm, 48, rfl⟩
abbrev main_v23 : Ref sig .tc := ⟨.hbm, 49, rfl⟩
abbrev main_v24 : Ref sig .tc := ⟨.hbm, 50, rfl⟩
abbrev main_call2_cst : Ref sig .tc := ⟨.hbm, 51, rfl⟩
abbrev main_call2_v0 : Ref sig .tc := ⟨.hbm, 52, rfl⟩
abbrev main_v25 : Ref sig .tc := ⟨.hbm, 53, rfl⟩
abbrev main_v26 : Ref sig .tc := ⟨.hbm, 54, rfl⟩
abbrev main_cst_8 : Ref sig .tc := ⟨.hbm, 55, rfl⟩
abbrev main_v27 : Ref sig .tc := ⟨.hbm, 56, rfl⟩
abbrev main_cst_9 : Ref sig .tc := ⟨.hbm, 57, rfl⟩
abbrev main_v28 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v31 : BitVec 1 := Scalar.cmpi .eq arg1 c31_i32
  let v32 : BitVec 32 := Scalar.extui v31
  let c0_i32_12 : BitVec 32 := 0#32
  let v33 : BitVec 1 := Scalar.cmpi .ne v32 c0_i32_12
  v33

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S524288 : S_.BroadcastsInDim S524288 (![] : Fin 0 → Fin S524288.rank)
  bcast_S_S128x128 : S_.BroadcastsInDim S128x128 (![] : Fin 0 → Fin S128x128.rank)
  bitsLt_bf16_f32 : FTy.bits .bf16 < FTy.bits .f32
  bcast_S_S1 : S_.BroadcastsInDim S1 (![] : Fin 0 → Fin S1.rank)
  shapeCasts_S524288_S4096x128 : S524288.ShapeCasts S4096x128
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S8192x128_S8192x128_0_0 : ∀ a, (![0, 0] : Fin 2 → Nat) a + S8192x128.size a ≤ S8192x128.size a
  h_S8192x128 : 0 < S8192x128.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  iota_S1x1x128_d2_w32 : S1x1x128.Iotas .tc 32 [2]
  shapeCasts_S64x128_S64x128x1 : S64x128.ShapeCasts S64x128x1
  broadcasts_S64x128x1_S64x128x128 : S64x128x1.Broadcasts S64x128x128
  broadcasts_S1x1x128_S64x128x128 : S1x1x128.Broadcasts S64x128x128
  natLt_1_32 : 1 < 32
  shapeCasts_S64x128x128_S8192x128 : S64x128x128.ShapeCasts S8192x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reduces_S8192x128_S8192 : S8192x128.Reduces [1] S8192
  shapeCasts_S8192_S8192x1 : S8192.ShapeCasts S8192x1
  reduces_S8192x1_S1 : S8192x1.Reduces [0] S1
  shapeCasts_S1_S1x1 : S1.ShapeCasts S1x1
  shapeCasts_S1x1_S1x1 : S1x1.ShapeCasts S1x1
  broadcasts_S1x1_S8x128 : S1x1.Broadcasts S8x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  bcast_S100x128_S100x1x128_0_2 : S100x128.BroadcastsInDim S100x1x128 (![0, 2] : Fin 2 → Fin S100x1x128.rank)
  bcast_S100x128_S1x100x128_1_2 : S100x128.BroadcastsInDim S1x100x128 (![1, 2] : Fin 2 → Fin S1x100x128.rank)
  bcast_S100x1x128_S100x100x128_0_1_2 : S100x1x128.BroadcastsInDim S100x100x128 (![0, 1, 2] : Fin 3 → Fin S100x100x128.rank)
  bcast_S1x100x128_S100x100x128_0_1_2 : S1x100x128.BroadcastsInDim S100x100x128 (![0, 1, 2] : Fin 3 → Fin S100x100x128.rank)
  bcast_S_S100x100x128 : S_.BroadcastsInDim S100x100x128 (![] : Fin 0 → Fin S100x100x128.rank)
  reducesTo_S100x100x128_S100x100_d2 : S100x100x128.ReducesTo [2] S100x100
  bcast_S_S100x100 : S_.BroadcastsInDim S100x100 (![] : Fin 0 → Fin S100x100.rank)
  reducesTo_S100x100_S_d0_1 : S100x100.ReducesTo [0, 1] S_
  scatter_S128x128_S1_S100x128_01_n_0_0_wf : ScatterDims.WF S128x128 S1 S100x128 [0, 1] [] [0] 0
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S524288x128.size a
  hwx0_0 : ∀ i : grid0.Coords, EltTy.bits .f32 = 32 ∨ (Rect.block (s := S524288x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S4096x128.size a
  hwx0_1 : ∀ i : grid0.Coords, EltTy.bits .i32 = 32 ∨ (Rect.block (s := S4096x128) S64x128.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S2x8x128.size a
  hwx0_3 : ∀ i : grid0.Coords, EltTy.bits .f32 = 32 ∨ (Rect.block (s := S2x8x128) S1x8x128.size (cc0_transform_3 i) (hinb0_3 i)).WholeWords (EltTy.packing .f32)

variable [Facts₀]

def scatter_S128x128_S1_S100x128_01_n_0_0 : ScatterDims S128x128 S1 S100x128 where
  updateWindowDims := [0, 1]
  insertedWindowDims := []
  scatterDimsToOperandDims := [0]
  indexVectorDim := 0
  wf := scatter_S128x128_S1_S100x128_01_n_0_0_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S524288x128 : Shape := ⟨2, ![524288, 128]⟩
abbrev S524288 : Shape := ⟨1, ![524288]⟩
abbrev S100x128 : Shape := ⟨2, ![100, 128]⟩
abbrev S_ : Shape := ⟨0, ![]⟩
abbrev S524288x1 : Shape := ⟨2, ![524288, 1]⟩
abbrev S100x1x128 : Shape := ⟨3, ![100, 1, 128]⟩
abbrev S1x100x128 : Shape := ⟨3, ![1, 100, 128]⟩
abbrev S100x100x128 : Shape := ⟨3, ![100, 100, 128]⟩
abbrev S100x100 : Shape := ⟨2, ![100, 100]⟩

abbrev nBuf : Space → Nat
  | .hbm => 52
  | .vmem => 0
  | .smem => 0
  | _ => 0

abbrev bufTy : (tb : Table) → Fin (tcTables nBuf tb) → BufTy
  | .hbm, ⟨0, _⟩ => ⟨S524288x128, .f32⟩
  | .hbm, ⟨1, _⟩ => ⟨S524288, .i32⟩
  | .hbm, ⟨2, _⟩ => ⟨S100x128, .f32⟩
  | .hbm, ⟨3, _⟩ => ⟨S_, .i32⟩
  | .hbm, ⟨4, _⟩ => ⟨S524288, .i32⟩
  | .hbm, ⟨5, _⟩ => ⟨S524288, .i1⟩
  | .hbm, ⟨6, _⟩ => ⟨S_, .i32⟩
  | .hbm, ⟨7, _⟩ => ⟨S524288, .i32⟩
  | .hbm, ⟨8, _⟩ => ⟨S524288, .i32⟩
  | .hbm, ⟨9, _⟩ => ⟨S524288, .i32⟩
  | .hbm, ⟨10, _⟩ => ⟨S524288x1, .i32⟩
  | .hbm, ⟨11, _⟩ => ⟨S524288x128, .f32⟩
  | .hbm, ⟨12, _⟩ => ⟨S524288x128, .f32⟩
  | .hbm, ⟨13, _⟩ => ⟨S524288x128, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S100x1x128, .f32⟩
  | .hbm, ⟨19, _⟩ => ⟨S1x100x128, .f32⟩
  | .hbm, ⟨20, _⟩ => ⟨S100x100x128, .f32⟩
  | .hbm, ⟨21, _⟩ => ⟨S100x100x128, .f32⟩
  | .hbm, ⟨22, _⟩ => ⟨S100x100x128, .f32⟩
  | .hbm, ⟨23, _⟩ => ⟨S_, .f32⟩
  | .hbm, ⟨24, _⟩ => ⟨S100x100x128, .f32⟩
  | .hbm, ⟨25, _⟩ => ⟨S100x100x128, .f32⟩
  | .hbm, ⟨26, _⟩ => ⟨S100x100x128, .f32⟩
  | .hbm, ⟨27, _⟩ => ⟨S_, .f32⟩
  | .hbm, ⟨28, _⟩ => ⟨S100x100, .f32⟩
  | .hbm, ⟨29, _⟩ => ⟨S100x100, .f32⟩
  | .hbm, ⟨30, _⟩ => ⟨S_, .f32⟩
  | .hbm, ⟨31, _⟩ => ⟨S100x100, .f32⟩
  | .hbm, ⟨32, _⟩ => ⟨S100x100, .i32⟩
  | .hbm, ⟨33, _⟩ => ⟨S_, .i32⟩
  | .hbm, ⟨34, _⟩ => ⟨S100x100, .i32⟩
  | .hbm, ⟨35, _⟩ => ⟨S100x100, .i32⟩
  | .hbm, ⟨36, _⟩ => ⟨S100x100, .i32⟩
  | .hbm, ⟨37, _⟩ => ⟨S100x100, .i1⟩
  | .hbm, ⟨38, _⟩ => ⟨S_, .f32⟩
  | .hbm, ⟨39, _⟩ => ⟨S100x100, .f32⟩
  | .hbm, ⟨40, _⟩ => ⟨S100x100, .f32⟩
  | .hbm, ⟨41, _⟩ => ⟨S_, .f32⟩
  | .hbm, ⟨42, _⟩ => ⟨S100x100, .f32⟩
  | .hbm, ⟨43, _⟩ => ⟨S100x100, .f32⟩
  | .hbm, ⟨44, _⟩ => ⟨S_, .f32⟩
  | .hbm, ⟨45, _⟩ => ⟨S100x100, .f32⟩
  | .hbm, ⟨46, _⟩ => ⟨S100x100, .f32⟩
  | .hbm, ⟨47, _⟩ => ⟨S100x100, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | _, _ => ⟨S524288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_call0_v0 : Ref sig .tc := ⟨.hbm, 32, rfl⟩
abbrev main_call0_c : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_cst : Ref sig .tc := ⟨.hbm, 38, rfl⟩
abbrev main_call0_v5 : Ref sig .tc := ⟨.hbm, 39, rfl⟩
abbrev main_v22 : Ref sig .tc := ⟨.hbm, 40, rfl⟩
abbrev main_cst_5 : Ref sig .tc := ⟨.hbm, 41, rfl⟩
abbrev main_v23 : Ref sig .tc := ⟨.hbm, 42, rfl⟩
abbrev main_v24 : Ref sig .tc := ⟨.hbm, 43, rfl⟩
abbrev main_call1_cst : Ref sig .tc := ⟨.hbm, 44, rfl⟩
abbrev main_call1_v0 : Ref sig .tc := ⟨.hbm, 45, rfl⟩
abbrev main_v25 : Ref sig .tc := ⟨.hbm, 46, rfl⟩
abbrev main_v26 : Ref sig .tc := ⟨.hbm, 47, rfl⟩
abbrev main_cst_6 : Ref sig .tc := ⟨.hbm, 48, rfl⟩
abbrev main_v27 : Ref sig .tc := ⟨.hbm, 49, rfl⟩
abbrev main_cst_7 : Ref sig .tc := ⟨.hbm, 50, rfl⟩
abbrev main_v28 : Ref sig .tc := ⟨.hbm, 51, rfl⟩

abbrev nD : Nat := 1
abbrev τ : Topo := Topo.v7x

variable {F : FTy → Type} [FloatOps F]

class Facts₀ : Prop where
  bcast_S_S524288 : S_.BroadcastsInDim S524288 (![] : Fin 0 → Fin S524288.rank)
  bcast_S524288_S524288x1_0 : S524288.BroadcastsInDim S524288x1 (![0] : Fin 1 → Fin S524288x1.rank)
  reducesTo_S524288x128_S_d0_1 : S524288x128.ReducesTo [0, 1] S_
  h_S_ : 0 < S_.numel
  bcast_S100x128_S100x1x128_0_2 : S100x128.BroadcastsInDim S100x1x128 (![0, 2] : Fin 2 → Fin S100x1x128.rank)
  bcast_S100x128_S1x100x128_1_2 : S100x128.BroadcastsInDim S1x100x128 (![1, 2] : Fin 2 → Fin S1x100x128.rank)
  bcast_S100x1x128_S100x100x128_0_1_2 : S100x1x128.BroadcastsInDim S100x100x128 (![0, 1, 2] : Fin 3 → Fin S100x100x128.rank)
  bcast_S1x100x128_S100x100x128_0_1_2 : S1x100x128.BroadcastsInDim S100x100x128 (![0, 1, 2] : Fin 3 → Fin S100x100x128.rank)
  bcast_S_S100x100x128 : S_.BroadcastsInDim S100x100x128 (![] : Fin 0 → Fin S100x100x128.rank)
  reducesTo_S100x100x128_S100x100_d2 : S100x100x128.ReducesTo [2] S100x100
  bcast_S_S100x100 : S_.BroadcastsInDim S100x100 (![] : Fin 0 → Fin S100x100.rank)
  reducesTo_S100x100_S_d0_1 : S100x100.ReducesTo [0, 1] S_
  gather_S100x128_S524288x1_S524288x128_1_0_n_n_0_1_1128_wf : GatherDims.WF S100x128 S524288x1 S524288x128 [1] [0] [] [0] [] 1 ![1, 128]

variable [Facts₀]

def gather_S100x128_S524288x1_S524288x128_1_0_n_n_0_1_1128 : GatherDims S100x128 S524288x1 S524288x128 where
  offsetDims := [1]
  collapsedSliceDims := [0]
  operandBatchingDims := []
  startIndicesBatchingDims := []
  startIndexMap := [0]
  indexVectorDim := 1
  sliceSizes := ![1, 128]
  wf := gather_S100x128_S524288x1_S524288x128_1_0_n_n_0_1_1128_wf

class Facts : Prop extends Facts₀ where

variable [Facts]
-- ==== Proof.Pieces.lean ====
/-
  What each control case of the kernel body leaves behind, as the body's own stored values.

  The body has three cases by the tile's position j within its half: at j = 0 it zeroes the accumulator and then
  adds the tile's sum into it; at 0 < j < 31 it adds the tile's sum into what the tile before left; at j = 31 it
  does the same and then copies the accumulator into the output block.  Each case's run leaves a list of stores
  that cover the buffer whole; read back, the buffer holds the last store's value.
-/
import proofs.«410400_j68771016343846_3_alg».proof.Proof.Gen.KernelIdeal.Frame
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The accumulator and the output block are stored whole: their stores start at offset zero on both axes. -/
theorem off2_zero : (![0, 0] : Fin 2 → Nat) = fun _ => 0 := by
  funext a; match a with | ⟨0, _⟩ => rfl | ⟨1, _⟩ => rfl
theorem off3_zero : (![0, 0, 0] : Fin 3 → Nat) = fun _ => 0 := by
  funext a; match a with | ⟨0, _⟩ => rfl | ⟨1, _⟩ => rfl | ⟨2, _⟩ => rfl

/-- A middle tile leaves in the accumulator its update of what the tile before left. -/
theorem sout_B (c : Dev nD) (i : grid0.Coords) (arg2 : Memref sig .tc .vmem S8192x128 .f32) (harg2 : arg2.IsWhole) (arg3 : Memref sig .tc .vmem S64x128 .i32) (harg3 : arg3.IsWhole) (arg4 : Memref sig .tc .vmem S128x128 .bf16) (harg4 : arg4.IsWhole) (arg5 : Memref sig .tc .vmem S1x8x128 .f32) (harg5 : arg5.IsWhole) (arg6 : Memref sig .tc .vmem S8x128 .f32) (harg6 : arg6.IsWhole) (hc0 : ¬cond0_0 i) (hc1 : ¬cond0_1 i)
    (x0 : Vec F S8192x128 .f32) (x1 : Vec F S64x128 .i32) (x2 : Vec F S128x128 .bf16) (xs0 : Vec F S8x128 .f32) :
    sout0_B_0 c i arg2 harg2 arg3 harg3 arg4 harg4 arg5 harg5 arg6 harg6 hc0 hc1 x0 x1 x2 xs0 = k0_pay2 x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero off2_zero]
  simp only [View.readAt_eq_ld, harg2.read_unread, harg3.read_unread, harg4.read_unread, harg6.read_unread,
    View.ld_unit_zero (S := S8192x128) off2_zero, View.ld_unit_zero (S := S64x128) off2_zero,
    View.ld_unit_zero (S := S128x128) off2_zero, View.ld_unit_zero (S := S8x128) off2_zero]

/-- A half's first tile leaves in the accumulator its update of the zero accumulator. -/
theorem sout_A (c : Dev nD) (i : grid0.Coords) (arg2 : Memref sig .tc .vmem S8192x128 .f32) (harg2 : arg2.IsWhole) (arg3 : Memref sig .tc .vmem S64x128 .i32) (harg3 : arg3.IsWhole) (arg4 : Memref sig .tc .vmem S128x128 .bf16) (harg4 : arg4.IsWhole) (arg5 : Memref sig .tc .vmem S1x8x128 .f32) (harg5 : arg5.IsWhole) (arg6 : Memref sig .tc .vmem S8x128 .f32) (harg6 : arg6.IsWhole) (hc0 : cond0_0 i) (hc1 : ¬cond0_1 i)
    (x0 : Vec F S8192x128 .f32) (x1 : Vec F S64x128 .i32) (x2 : Vec F S128x128 .bf16) :
    sout0_A_0 c i arg2 harg2 arg3 harg3 arg4 harg4 arg5 harg5 arg6 harg6 hc0 hc1 x0 x1 x2 = k0_pay2 x0 x1 x2 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S8x128) off2_zero]
  simp only [View.readAt_eq_ld, harg2.read_unread, harg3.read_unread, harg4.read_unread,
    View.readCov_unit_zero (S := S8x128) _ off2_zero,
    View.ld_unit_zero (S := S8192x128) off2_zero, View.ld_unit_zero (S := S64x128) off2_zero,
    View.ld_unit_zero (S := S128x128) off2_zero, View.ld_unit_zero (S := S8x128) off2_zero]

/-- A half's last tile leaves in the accumulator its update of what the tile before left, -/
theorem sout_C (c : Dev nD) (i : grid0.Coords) (arg2 : Memref sig .tc .vmem S8192x128 .f32) (harg2 : arg2.IsWhole) (arg3 : Memref sig .tc .vmem S64x128 .i32) (harg3 : arg3.IsWhole) (arg4 : Memref sig .tc .vmem S128x128 .bf16) (harg4 : arg4.IsWhole) (arg5 : Memref sig .tc .vmem S1x8x128 .f32) (harg5 : arg5.IsWhole) (arg6 : Memref sig .tc .vmem S8x128 .f32) (harg6 : arg6.IsWhole) (hc0 : ¬cond0_0 i) (hc1 : cond0_1 i)
    (x0 : Vec F S8192x128 .f32) (x1 : Vec F S64x128 .i32) (x2 : Vec F S128x128 .bf16) (xs0 : Vec F S8x128 .f32) :
    sout0_C_0 c i arg2 harg2 arg3 harg3 arg4 harg4 arg5 harg5 arg6 harg6 hc0 hc1 x0 x1 x2 xs0 = k0_pay2 x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero off2_zero]
  simp only [View.readAt_eq_ld, harg2.read_unread, harg3.read_unread, harg4.read_unread, harg6.read_unread,
    View.ld_unit_zero (S := S8192x128) off2_zero, View.ld_unit_zero (S := S64x128) off2_zero,
    View.ld_unit_zero (S := S128x128) off2_zero, View.ld_unit_zero (S := S8x128) off2_zero]

/-- and in the output block that accumulator under a leading unit axis. -/
theorem out_C (c : Dev nD) (i : grid0.Coords) (arg2 : Memref sig .tc .vmem S8192x128 .f32) (harg2 : arg2.IsWhole) (arg3 : Memref sig .tc .vmem S64x128 .i32) (harg3 : arg3.IsWhole) (arg4 : Memref sig .tc .vmem S128x128 .bf16) (harg4 : arg4.IsWhole) (arg5 : Memref sig .tc .vmem S1x8x128 .f32) (harg5 : arg5.IsWhole) (arg6 : Memref sig .tc .vmem S8x128 .f32) (harg6 : arg6.IsWhole) (hc0 : ¬cond0_0 i) (hc1 : cond0_1 i)
    (x0 : Vec F S8192x128 .f32) (x1 : Vec F S64x128 .i32) (x2 : Vec F S128x128 .bf16) (xs0 : Vec F S8x128 .f32) :
    out0_C_3 c i arg2 harg2 arg3 harg3 arg4 harg4 arg5 harg5 arg6 harg6 hc0 hc1 x0 x1 x2 xs0 = k0_pay3 (k0_pay2 x0 x1 x2 xs0) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero off3_zero]
  simp only [View.readAt_eq_ld, harg2.read_unread, harg3.read_unread, harg4.read_unread, harg6.read_unread,
    View.readCov_unit_zero (S := S8x128) _ off2_zero,
    View.ld_unit_zero (S := S8192x128) off2_zero, View.ld_unit_zero (S := S64x128) off2_zero,
    View.ld_unit_zero (S := S128x128) off2_zero, View.ld_unit_zero (S := S8x128) off2_zero]

end Cert.KernelIdeal.Gen

end
-- ==== Proof.Spec.lean ====
/-
  The mathematics of the two programs, stated once over literal shapes.

  A sample `n` carries a label word; the class it selects is the word read as a signed integer and clamped into
  `[0, 99]` (`cls`).  The centre loss is the mean over all samples `n` and features `d` of
  `(feat n d - centre (cls (label n)) d)²` (`sqErr`).  The kernel computes it tile by tile: a tile of 8192 samples
  holds its labels lane-dense, sample `r` at `(r / 128, r % 128)`, already clamped, and looks its centre up in the
  table padded to 128 rows (`tileErr`).
-/
import Idealize.ShloMosaic.PureOps.Ideal
import Idealize.ShloMosaic.Lib.ValueIdx

noncomputable section

namespace Cert.CenterLoss

open Idealize.ShloMosaic Idealize.ShloMosaic.ValueIdx

/-- The class a label word selects: the word read signed, clamped into `[0, 99]`. -/
def cls (l : BitVec 32) : ℕ := min l.toInt.toNat 99

theorem cls_lt (l : BitVec 32) : cls l < 100 := by unfold cls; omega

/-- Row `n` of a table of 128-wide rows, read at column `d`; zero past the table's last row. -/
def rowAt {R : ℕ} (tbl : (⟨2, ![R, 128]⟩ : Shape).Idx → EReal) (n : ℕ) (d : Fin 128) : EReal :=
  if h : n < R then tbl (ix2 ⟨n, h⟩ d) else 0

theorem rowAt_of_lt {R : ℕ} (tbl : (⟨2, ![R, 128]⟩ : Shape).Idx → EReal) (n : ℕ) (h : n < R) (d : Fin 128) :
    rowAt tbl n d = tbl (ix2 ⟨n, h⟩ d) := dif_pos h

/-- The squared distance of sample `n`'s feature `d` from its class centre's. -/
def sqErr (feat : (⟨2, ![524288, 128]⟩ : Shape).Idx → EReal) (lab : (⟨1, ![524288]⟩ : Shape).Idx → BitVec 32)
    (cen : (⟨2, ![100, 128]⟩ : Shape).Idx → EReal) (n : Fin 524288) (d : Fin 128) : EReal :=
  (feat (ix2 n d) - rowAt cen (cls (lab (ix1 n))) d) * (feat (ix2 n d) - rowAt cen (cls (lab (ix1 n))) d)

/-- One tile's sum of squared distances, from the tile's blocks: 8192 samples' features `x0`, their label words
    `x1` laid out lane-dense (sample `r` at `(r / 128, r % 128)`), and the 128-row table `x2`; sample `r` reads
    the table's row numbered by its label word. -/
def tileErr (x0 : (⟨2, ![8192, 128]⟩ : Shape).Idx → EReal) (x1 : (⟨2, ![64, 128]⟩ : Shape).Idx → BitVec 32)
    (x2 : (⟨2, ![128, 128]⟩ : Shape).Idx → EReal) : EReal :=
  ∑ r : Fin 8192, ∑ d : Fin 128,
    (x0 (ix2 r d) - rowAt x2 (x1 (ix2 (⟨r.val / 128, by have := r.isLt; omega⟩ : Fin 64) (⟨r.val % 128, by omega⟩ : Fin 128))).toNat d)
      * (x0 (ix2 r d) - rowAt x2 (x1 (ix2 (⟨r.val / 128, by have := r.isLt; omega⟩ : Fin 64) (⟨r.val % 128, by omega⟩ : Fin 128))).toNat d)

/-- The centre loss both programs compute: the sum of all squared distances times 2⁻²⁶ (there are
    524288 · 128 = 2²⁶ of them). -/
def meanLoss (feat : (⟨2, ![524288, 128]⟩ : Shape).Idx → EReal) (lab : (⟨1, ![524288]⟩ : Shape).Idx → BitVec 32)
    (cen : (⟨2, ![100, 128]⟩ : Shape).Idx → EReal) : EReal :=
  (∑ n : Fin 524288, ∑ d : Fin 128, sqErr feat lab cen n d) * (((1 / 67108864 : ℝ) : ℝ) : EReal)

end Cert.CenterLoss

end
-- ==== Proof.TileBlocks.lean ====
/-
  The blocks a tile reads, named at their literal types, and the tile's sum of squared distances over them.
-/
import proofs.«410400_j68771016343846_3_alg».proof.Proof.Gen.KernelIdeal.Frame
import proofs.«410400_j68771016343846_3_alg».proof.Proof.Spec

set_option maxRecDepth 16384

noncomputable section

namespace Cert.CenterLoss

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.KernelIdeal Cert.KernelIdeal.Gen

variable (m : (ℓ : Loc nD τ sig) → Buf (Elt Ideal) ℓ)

/-- Tile `t`'s blocks at their literal types: its 8192 samples' features, their label words, and the table. -/
abbrev fblk (c : Dev nD) (t : Fin cfg0.N) : Vec Ideal S8192x128 .f32 := iblk m c 0 t
abbrev lblk (c : Dev nD) (t : Fin cfg0.N) : Vec Ideal S64x128 .i32 := iblk m c 1 t
abbrev tblk (c : Dev nD) (t : Fin cfg0.N) : Vec Ideal S128x128 .bf16 := iblk m c 2 t

/-- Tile `n`'s sum of squared distances (zero for a number that is no tile's). -/
def tileAt (c : Dev nD) (n : ℕ) : EReal :=
  if h : n < cfg0.N then tileErr (fblk m c ⟨n, h⟩) (lblk m c ⟨n, h⟩) (tblk m c ⟨n, h⟩) else 0

theorem tileAt_of_lt (c : Dev nD) (n : ℕ) (h : n < cfg0.N) :
    tileAt m c n = tileErr (fblk m c ⟨n, h⟩) (lblk m c ⟨n, h⟩) (tblk m c ⟨n, h⟩) := dif_pos h

end Cert.CenterLoss

end
-- ==== Proof.TilePayload.lean ====
/-
  What the kernel body stores, read at an index over the extended reals.

  The accumulator update: the body compares each sample's label word with the lane numbers 0..127, turns the
  comparison into a 0/1 row, multiplies that row into the 128-row table (which picks the table's row numbered by
  the label word, or nothing when the word is no lane number), subtracts from the features, squares, sums over
  features and then over samples, and adds that one number to every entry of the carried accumulator.
-/
import proofs.«410400_j68771016343846_3_alg».proof.Proof.Gen.KernelIdeal.Skeleton
import proofs.«410400_j68771016343846_3_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.CenterLoss

open Idealize.ShloMosaic Idealize.ShloMosaic.ValueIdx Cert.KernelIdeal Cert.KernelIdeal.Gen

/-! ## The 0/1 row and the table row it picks -/

/-- A label word compared for equality with lane number `k`, widened and converted: `1` when the word's value is
    `k`, `0` otherwise. -/
theorem laneHit_eq (w : BitVec 32) (k : Fin 128) :
    (FloatOps.sitofp (F := Ideal) .f32 ((IntOp.cmpi .eq w (BitVec.ofNat 32 k.val)).setWidth 32) : EReal)
      = if w.toNat = k.val then 1 else 0 := by
  have hk : (BitVec.ofNat 32 k.val).toNat = k.val := by
    rw [BitVec.toNat_ofNat]; have := k.isLt; omega
  by_cases h : w = BitVec.ofNat 32 k.val
  · have ht : w.toNat = k.val := by rw [h, hk]
    rw [if_pos ht, h]
    show (((( (BitVec.ofBool (BitVec.ofNat 32 k.val == BitVec.ofNat 32 k.val)).setWidth 32).toInt : ℝ)) : EReal) = 1
    rw [beq_self_eq_true, show ((BitVec.ofBool true).setWidth 32).toInt = 1 from by decide]
    simp
  · have ht : ¬ w.toNat = k.val := fun e => h (BitVec.eq_of_toNat_eq (e.trans hk.symm))
    rw [if_neg ht]
    show (((( (BitVec.ofBool (w == BitVec.ofNat 32 k.val)).setWidth 32).toInt : ℝ)) : EReal) = 0
    rw [beq_eq_false_iff_ne.mpr h, show ((BitVec.ofBool false).setWidth 32).toInt = 0 from by decide]
    simp

/-- A 0/1 row with its one at the position a number `n` names, multiplied into the 128-row table and summed over
    the rows, is the table's row `n`; when `n` names no row every term is `0 * x = 0`, which holds for every
    extended real, and the sum is zero. -/
theorem laneHit_sum (x2 : (⟨2, ![128, 128]⟩ : Shape).Idx → EReal) (n : ℕ) (d : Fin 128) :
    ∑ k : Fin 128, (if n = k.val then (1 : EReal) else 0) * x2 (ix2 k d) = rowAt x2 n d := by
  unfold rowAt
  split
  · rename_i h
    rw [Finset.sum_eq_single (⟨n, h⟩ : Fin 128)]
    · rw [if_pos rfl, one_mul]
    · intro b _ hb
      rw [if_neg (fun e => hb (Fin.ext e.symm)), zero_mul]
    · intro hn; exact absurd (Finset.mem_univ _) hn
  · rename_i h
    refine Finset.sum_eq_zero fun k _ => ?_
    rw [if_neg (fun e => h (by rw [e]; exact k.isLt)), zero_mul]

/-! ## The layout operations of the body, read at an index -/

section Layout
variable {α : Type}

/-- A `[64, 128, 128]` array cast to `[8192, 128]` reads, at `(r, k)`, the operand at `(r / 128, r % 128, k)`: the
    two leading axes are merged row-major. -/
theorem shapeCast_merge_apply (x : (⟨3, ![64, 128, 128]⟩ : Shape).Idx → α)
    (h : (⟨3, ![64, 128, 128]⟩ : Shape).ShapeCasts ⟨2, ![8192, 128]⟩) (r : Fin 8192) (k : Fin 128) :
    shapeCast ⟨2, ![8192, 128]⟩ x h (ix2 r k)
      = x (ix3 (⟨r.val / 128, by have := r.isLt; omega⟩ : Fin 64) (⟨r.val % 128, by omega⟩ : Fin 128) k) :=
  shapeCast_apply x h _ _ (by
    rw [Shape.rowMajor_val_three, Shape.rowMajor_val_two]
    show (r.val / 128 * 128 + r.val % 128) * 128 + k.val = r.val * 128 + k.val
    omega)

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a]` array cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[64, 128, 1]` array broadcast to `[64, 128, 128]` reads, at `(i, j, k)`, the operand at `(i, j, 0)`. -/
theorem broadcastTo_col_apply (x : (⟨3, ![64, 128, 1]⟩ : Shape).Idx → α)
    (h : (⟨3, ![64, 128, 1]⟩ : Shape).Broadcasts ⟨3, ![64, 128, 128]⟩) (i : Fin 64) (j : Fin 128) (k : Fin 128) :
    broadcastTo ⟨3, ![64, 128, 128]⟩ x h (ix3 i j k) = x (ix3 i j (0 : Fin 1)) := by
  refine broadcastTo_apply x h (ix3 i j k) (ix3 i j (0 : Fin 1)) fun ax => ?_
  match ax with
  | ⟨0, _⟩ => rfl
  | ⟨1, _⟩ => rfl
  | ⟨2, _⟩ => rfl

/-- A `[1, 1, 128]` array broadcast to `[64, 128, 128]` reads, at `(i, j, k)`, the operand at `(0, 0, k)`. -/
theorem broadcastTo_lane_apply (x : (⟨3, ![1, 1, 128]⟩ : Shape).Idx → α)
    (h : (⟨3, ![1, 1, 128]⟩ : Shape).Broadcasts ⟨3, ![64, 128, 128]⟩) (i : Fin 64) (j : Fin 128) (k : Fin 128) :
    broadcastTo ⟨3, ![64, 128, 128]⟩ x h (ix3 i j k) = x (ix3 (0 : Fin 1) (0 : Fin 1) k) := by
  refine broadcastTo_apply x h (ix3 i j k) (ix3 (0 : Fin 1) (0 : Fin 1) k) fun ax => ?_
  match ax with
  | ⟨0, _⟩ => rfl
  | ⟨1, _⟩ => rfl
  | ⟨2, _⟩ => rfl

/-- A `[1, 1]` array broadcast to `[8, 128]` reads its one entry everywhere. -/
theorem broadcastTo_one_apply (x : (⟨2, ![1, 1]⟩ : Shape).Idx → α)
    (h : (⟨2, ![1, 1]⟩ : Shape).Broadcasts ⟨2, ![8, 128]⟩) (p : Fin 8) (q : Fin 128) :
    broadcastTo ⟨2, ![8, 128]⟩ x h (ix2 p q) = x (ix2 (0 : Fin 1) (0 : Fin 1)) := by
  refine broadcastTo_apply x h (ix2 p q) (ix2 (0 : Fin 1) (0 : Fin 1)) fun ax => ?_
  match ax with
  | ⟨0, _⟩ => rfl
  | ⟨1, _⟩ => rfl

end Layout

/-! ## The 0/1 row the body builds, at an index -/

/-- The body's 0/1 matrix: the label block with a trailing unit axis, broadcast along 128 lanes, compared with the
    lane numbers, widened, converted, and with its two leading axes merged. At `(r, k)` it is `1` when sample
    `r`'s label word, which sits at `(r / 128, r % 128)`, has the value `k`, and `0` otherwise. -/
theorem laneRow_apply (x1 : IVec S64x128 32) (h2 : S64x128.ShapeCasts S64x128x1)
    (h3 : S64x128x1.Broadcasts S64x128x128) (h4 : S1x1x128.Iotas .tc 32 [2]) (h5 : S1x1x128.Broadcasts S64x128x128)
    (h6 : 1 < 32) (h7 : FTy.bits .bf16 < FTy.bits .f32) (h8 : S64x128x128.ShapeCasts S8192x128)
    (r : Fin 8192) (k : Fin 128) :
    shapeCast S8192x128
        (truncf .bf16
          (sitofp (F := Ideal) .f32
            (extui 32
              (cmpi .eq (broadcastTo S64x128x128 (shapeCast S64x128x1 x1 h2) h3)
                (broadcastTo S64x128x128 (iota .tc S1x1x128 32 [2] h4) h5))
              h6))
          h7)
        h8 (ix2 r k)
      = if (x1 (ix2 (⟨r.val / 128, by have := r.isLt; omega⟩ : Fin 64) (⟨r.val % 128, by omega⟩ : Fin 128))).toNat = k.val
          then 1 else 0 := by
  rw [shapeCast_merge_apply, truncf_apply, sitofp_apply, extui_apply]
  show FloatOps.sitofp (F := Ideal) .f32 ((IntOp.cmpi .eq
      (broadcastTo S64x128x128 (shapeCast S64x128x1 x1 h2) h3 (ix3 _ _ k))
      (broadcastTo S64x128x128 (iota .tc S1x1x128 32 [2] h4) h5 (ix3 _ _ k))).setWidth 32) = _
  rw [broadcastTo_col_apply, shapeCast_ab_ab1_apply, broadcastTo_lane_apply, iota_single_apply]
  exact laneHit_eq _ k

/-- The 0/1 matrix times the table, at `(r, d)`: the table's row numbered by sample `r`'s label word, at `d`
    (nothing, that is zero, when the word numbers no row). -/
theorem pickedRow_apply (x1 : IVec S64x128 32) (x2 : (⟨2, ![128, 128]⟩ : Shape).Idx → EReal)
    (h2 : S64x128.ShapeCasts S64x128x1)
    (h3 : S64x128x1.Broadcasts S64x128x128) (h4 : S1x1x128.Iotas .tc 32 [2]) (h5 : S1x1x128.Broadcasts S64x128x128)
    (h6 : 1 < 32) (h7 : FTy.bits .bf16 < FTy.bits .f32) (h8 : S64x128x128.ShapeCasts S8192x128)
    (r : Fin 8192) (d : Fin 128) :
    ∑ k : Fin 128,
        shapeCast S8192x128
            (truncf .bf16
              (sitofp (F := Ideal) .f32
                (extui 32
                  (cmpi .eq (broadcastTo S64x128x128 (shapeCast S64x128x1 x1 h2) h3)
                    (broadcastTo S64x128x128 (iota .tc S1x1x128 32 [2] h4) h5))
                  h6))
              h7)
            h8 (ix2 r k) * x2 (ix2 k d)
      = rowAt x2 (x1 (ix2 (⟨r.val / 128, by have := r.isLt; omega⟩ : Fin 64) (⟨r.val % 128, by omega⟩ : Fin 128))).toNat d := by
  refine Eq.trans (Finset.sum_congr rfl fun k _ => ?_) (laneHit_sum x2 _ d)
  rw [laneRow_apply]

/-! ## The product with the table, at an index -/

/-- The left operand's index on its row axis is the output's row … -/
theorem dot_lhs_0 (j : S8192x128.Idx) (k : dot_S8192x128_S128x128_S8192x128_1_0_0_1_n_n.contr.Idx) :
    (dot_S8192x128_S128x128_S8192x128_1_0_0_1_n_n.lhsIdx j k 0).val = (j 0).val := by
  simp [DotDims.lhsIdx, dot_S8192x128_S128x128_S8192x128_1_0_0_1_n_n]; rfl
/-- … and on its column axis the contraction position; -/
theorem dot_lhs_1 (j : S8192x128.Idx) (k : dot_S8192x128_S128x128_S8192x128_1_0_0_1_n_n.contr.Idx) :
    (dot_S8192x128_S128x128_S8192x128_1_0_0_1_n_n.lhsIdx j k 1).val = (k ⟨0, by decide⟩).val :=
  dot_S8192x128_S128x128_S8192x128_1_0_0_1_n_n.lhsIdx_val_of_single rfl j k
/-- the right operand's index on its row axis is the contraction position … -/
theorem dot_rhs_0 (j : S8192x128.Idx) (k : dot_S8192x128_S128x128_S8192x128_1_0_0_1_n_n.contr.Idx) :
    (dot_S8192x128_S128x128_S8192x128_1_0_0_1_n_n.rhsIdx j k 0).val = (k ⟨0, by decide⟩).val :=
  dot_S8192x128_S128x128_S8192x128_1_0_0_1_n_n.rhsIdx_val_of_single rfl j k
/-- … and on its column axis the output's column. -/
theorem dot_rhs_1 (j : S8192x128.Idx) (k : dot_S8192x128_S128x128_S8192x128_1_0_0_1_n_n.contr.Idx) :
    (dot_S8192x128_S128x128_S8192x128_1_0_0_1_n_n.rhsIdx j k 1).val = (j 1).val := by
  simp [DotDims.rhsIdx, dot_S8192x128_S128x128_S8192x128_1_0_0_1_n_n]; rfl

/-- The body's matrix product into the zero accumulator, at `(r, d)`: the sum over the 128 contraction positions of
    the left operand's row `r` times the right operand's column `d`. -/
theorem matmul_row_apply (A : FVec Ideal S8192x128 .bf16) (B : FVec Ideal S128x128 .bf16) (r : Fin 8192) (d : Fin 128) :
    matmul dot_S8192x128_S128x128_S8192x128_1_0_0_1_n_n none A B (constant (F := Ideal) S8192x128 .f32 0x00000000#32) (ix2 r d)
      = ∑ k : Fin 128, A (ix2 r k) * B (ix2 k d) := by
  show FloatOps.matmul dot_S8192x128_S128x128_S8192x128_1_0_0_1_n_n none A B _ (ix2 r d) = _
  rw [Ideal.matmul_constant_zero_apply,
    ← Equiv.sum_comp (contrEquiv1 dot_S8192x128_S128x128_S8192x128_1_0_0_1_n_n 128 rfl rfl).symm]
  refine Finset.sum_congr rfl fun k _ => ?_
  have c := contrEquiv1_symm_val dot_S8192x128_S128x128_S8192x128_1_0_0_1_n_n 128 rfl rfl k
  have l : dot_S8192x128_S128x128_S8192x128_1_0_0_1_n_n.lhsIdx (ix2 r d) ((contrEquiv1 _ 128 rfl rfl).symm k) = ix2 r k := by
    funext ax; apply Fin.ext
    match ax with
    | ⟨0, _⟩ => exact dot_lhs_0 _ _
    | ⟨1, _⟩ => exact (dot_lhs_1 _ _).trans c
  have r' : dot_S8192x128_S128x128_S8192x128_1_0_0_1_n_n.rhsIdx (ix2 r d) ((contrEquiv1 _ 128 rfl rfl).symm k) = ix2 k d := by
    funext ax; apply Fin.ext
    match ax with
    | ⟨0, _⟩ => exact (dot_rhs_0 _ _).trans c
    | ⟨1, _⟩ => exact dot_rhs_1 _ _
  rw [l, r']

/-! ## The two sums, at an index -/

/-- The sum over the features (axis 1 of `[8192, 128]`), at sample `r`. -/
theorem sum_lanes_apply (v : FVec Ideal S8192x128 .f32) (h : S8192x128.Reduces [1] S8192) (hφ : FKind.Formats .f32)
    (hacc : (0x00000000#32 : BitVec 32) = 0x00000000#32) (r : Fin 8192) :
    multiReduction .add [1] S8192 v 0x00000000#32 h hφ hacc (ix1 r) = ∑ d : Fin 128, v (ix2 r d) := by
  refine (Ideal.multiReduction_add_single v 0x00000000#32 h hφ hacc (ix1 r)).trans ?_
  show ∑ d : Fin 128, v (h.lift (ix1 r) d) = _
  refine Finset.sum_congr rfl fun d _ => congrArg v ?_
  funext ax; apply Fin.ext
  match ax with
  | ⟨0, _⟩ => rfl
  | ⟨1, _⟩ => rfl

/-- The sum over the samples (axis 0 of `[8192, 1]`), at its one index. -/
theorem sum_rows_apply (v : FVec Ideal S8192x1 .f32) (h : S8192x1.Reduces [0] S1) (hφ : FKind.Formats .f32)
    (hacc : (0x00000000#32 : BitVec 32) = 0x00000000#32) (u : Fin 1) :
    multiReduction .add [0] S1 v 0x00000000#32 h hφ hacc (ix1 u) = ∑ r : Fin 8192, v (ix2 r u) := by
  refine (Ideal.multiReduction_add_single v 0x00000000#32 h hφ hacc (ix1 u)).trans ?_
  show ∑ r : Fin 8192, v (h.lift (ix1 u) r) = _
  refine Finset.sum_congr rfl fun r _ => congrArg v ?_
  funext ax; apply Fin.ext
  match ax with
  | ⟨0, _⟩ => rfl
  | ⟨1, _⟩ => rfl

/-- The reset value: every entry zero. -/
theorem pay1_apply (y : S8x128.Idx) : k0_pay1 (F := Ideal) y = 0 := by
  unfold k0_pay1
  rw [shapeCast_self]
  exact Ideal.ofBits_zero_f32

/-- The accumulator update at an entry: the entry carried in plus the tile's sum of squared distances. -/
theorem pay2_apply (x0 : Vec Ideal S8192x128 .f32) (x1 : Vec Ideal S64x128 .i32) (x2 : Vec Ideal S128x128 .bf16)
    (acc : Vec Ideal S8x128 .f32) (y : S8x128.Idx) :
    k0_pay2 (F := Ideal) x0 x1 x2 acc y = acc y + tileErr x0 x1 x2 := by
  obtain ⟨p, q, rfl⟩ : ∃ (p : Fin 8) (q : Fin 128), y = ix2 p q := ⟨y 0, y 1, eq_ix2 y⟩
  unfold k0_pay2
  -- the two blocks cast to their own shapes are the blocks
  rw [shapeCast_self x1, shapeCast_self x2]
  -- the stored value is the sum cast to its own shape: the carried entry plus the one number, broadcast
  refine (congrFun (shapeCast_self _ _) _).trans ?_
  rw [addf_apply]
  refine congrArg (acc (ix2 p q) + ·) ?_
  -- the one number, through the broadcast and the rank changes of a one-entry array
  refine (broadcastTo_one_apply _ _ p q).trans ?_
  refine (congrFun (shapeCast_self _ _) _).trans ?_
  refine (shapeCast_a_1a_apply _ _ _ _).trans ?_
  -- it is the sum over the samples …
  refine (sum_rows_apply _ _ _ _ _).trans ?_
  unfold tileErr
  refine Finset.sum_congr rfl fun r _ => ?_
  -- … of the sum over the features …
  refine (shapeCast_a_a1_apply _ _ r _).trans ?_
  refine (sum_lanes_apply _ _ _ _ r).trans ?_
  refine Finset.sum_congr rfl fun d _ => ?_
  -- … of the squared difference between the feature and the product's entry, which is the table's row
  rw [mulf_apply, subf_apply, matmul_row_apply, pickedRow_apply x1 x2 _ _ _ _ _ _ _ r d]

/-- The block written out: the accumulator under one leading unit axis. -/
theorem pay3_apply (v : Vec Ideal S8x128 .f32) (a : Fin 1) (p : Fin 8) (q : Fin 128) :
    k0_pay3 (F := Ideal) v (ix3 a p q) = v (ix2 p q) := by
  unfold k0_pay3
  exact shapeCast_ab_1ab_apply v _ a p q

end Cert.CenterLoss

end
-- ==== Proof.Fold.lean ====
/-
  The accumulator after each tile, and the block a half's last tile writes out.

  Tile n (n = 0..63) belongs to half n / 32 at position n % 32.  The accumulator after tile n is, at every entry,
  the sum of the tiles' sums of squared distances from the half's first tile up to tile n: the first tile of a half
  starts from zero, every later one adds its own sum to what the tile before left.  The half's last tile copies the
  accumulator out, so the block it writes holds, at every entry, the sum over the half's 32 tiles.
-/
import proofs.«410400_j68771016343846_3_alg».proof.Proof.Pieces
import proofs.«410400_j68771016343846_3_alg».proof.Proof.TileBlocks
import proofs.«410400_j68771016343846_3_alg».proof.Proof.TilePayload
import Idealize.ShloMosaic.Lib.Pipeline.Value

set_option maxRecDepth 16384

noncomputable section

namespace Cert.CenterLoss

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.KernelIdeal Cert.KernelIdeal.Gen

variable (m : (ℓ : Loc nD τ sig) → Buf (Elt Ideal) ℓ)

/-- After a half's first tile the accumulator is that tile's update of zero. -/
theorem scr_reset (c : Dev nD) (t : Fin cfg0.N) (h0 : t.val % 32 = 0) :
    (outsAt0 m c t.val t.isLt).2 = k0_pay2 (fblk m c t) (lblk m c t) (tblk m c t) (k0_pay1 (F := Ideal)) := by
  have h1 : ¬ t.val % 32 = 31 := by omega
  rw [outsAt0_A m c t h0 h1]
  dsimp only
  exact sout_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h))
    (iblk m c 0 t) (iblk m c 1 t) (iblk m c 2 t)

/-- After any other tile it is that tile's update of what the tile before left. -/
theorem scr_step (c : Dev nD) (t : Fin cfg0.N) (h0 : ¬ t.val % 32 = 0) :
    (outsAt0 m c t.val t.isLt).2
      = k0_pay2 (fblk m c t) (lblk m c t) (tblk m c t) (outsAt0 m c (t.val - 1) (Nat.lt_of_le_of_lt (Nat.sub_le _ _) t.isLt)).2 := by
  by_cases h1 : t.val % 32 = 31
  · rw [outsAt0_C m c t h0 h1]
    dsimp only
    exact sout_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
      (iblk m c 0 t) (iblk m c 1 t) (iblk m c 2 t) (outsAt0 m c (t.val - 1) (Nat.lt_of_le_of_lt (Nat.sub_le _ _) t.isLt)).2
  · rw [outsAt0_B m c t h0 h1]
    dsimp only
    exact sout_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h))
      (iblk m c 0 t) (iblk m c 1 t) (iblk m c 2 t) (outsAt0 m c (t.val - 1) (Nat.lt_of_le_of_lt (Nat.sub_le _ _) t.isLt)).2

/-- A half's last tile writes out its accumulator under a leading unit axis. -/
theorem out_last (c : Dev nD) (t : Fin cfg0.N) (h1 : t.val % 32 = 31) :
    (outsAt0 m c t.val t.isLt).1 = k0_pay3 (outsAt0 m c t.val t.isLt).2 := by
  have h0 : ¬ t.val % 32 = 0 := by omega
  rw [outsAt0_C m c t h0 h1]
  dsimp only
  exact (out_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
      (iblk m c 0 t) (iblk m c 1 t) (iblk m c 2 t) (outsAt0 m c (t.val - 1) (Nat.lt_of_le_of_lt (Nat.sub_le _ _) t.isLt)).2).trans
    (congrArg k0_pay3 (sout_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
      (iblk m c 0 t) (iblk m c 1 t) (iblk m c 2 t) (outsAt0 m c (t.val - 1) (Nat.lt_of_le_of_lt (Nat.sub_le _ _) t.isLt)).2).symm)

/-- THE FOLD: after tile `t` every entry of the accumulator is the sum of the tile sums of its half's tiles up to `t`. -/
theorem scr_fold (c : Dev nD) (t : Fin cfg0.N) (y : S8x128.Idx) :
    (outsAt0 m c t.val t.isLt).2 y = 0 + ∑ s ∈ Finset.range (t.val % 32 + 1), tileAt m c (32 * (t.val / 32) + s) := by
  have h' : 32 * (t.val / 32) + t.val % 32 < cfg0.N := by rw [Nat.div_add_mod]; exact t.isLt
  have key := Pipeline.eq_accAt_of_mod (N := cfg0.N) (fun n h => (outsAt0 m c n h).2) 32
    (fun n h => k0_pay2 (fblk m c ⟨n, h⟩) (lblk m c ⟨n, h⟩) (tblk m c ⟨n, h⟩) (k0_pay1 (F := Ideal)))
    (fun n h acc => k0_pay2 (fblk m c ⟨n, h⟩) (lblk m c ⟨n, h⟩) (tblk m c ⟨n, h⟩) acc)
    (fun n h h0 => scr_reset m c ⟨n, h⟩ h0)
    (fun n h h0 => scr_step m c ⟨n + 1, h⟩ h0)
    (by norm_num) t.val t.isLt h'
  rw [show (outsAt0 m c t.val t.isLt).2 y = _ from congrFun key y]
  exact Pipeline.accAt_add_apply _ _ (fun _ => (0 : EReal)) (fun n _ => tileAt m c n) (32 * (t.val / 32)) 31
    (fun h i => by rw [pay2_apply, pay1_apply, tileAt_of_lt m c _ h])
    (fun n h acc i _ _ => by rw [pay2_apply, tileAt_of_lt m c _ h])
    (t.val % 32) (by omega) h' y

/-- So the block a half's last tile writes out holds, at every entry, the sum over the half's 32 tiles. -/
theorem out_fold (c : Dev nD) (t : Fin cfg0.N) (h1 : t.val % 32 = 31) (a : Fin 1) (p : Fin 8) (q : Fin 128) :
    (outsAt0 m c t.val t.isLt).1 (ix3 a p q) = 0 + ∑ s ∈ Finset.range 32, tileAt m c (32 * (t.val / 32) + s) := by
  rw [out_last m c t h1, pay3_apply, scr_fold m c t (ix2 p q), h1]

end Cert.CenterLoss

end
-- ==== Proof.PaddedTable.lean ====
/-
  The padded centre table.  The kernel's host prefix writes the 100 centre rows into a 128-row table of zeros at
  row 0 (one update window, 100 × 128, placed at the start index the one-entry index vector names): the result
  holds the centres in its rows 0..99 and keeps the zeros in rows 100..127.

  The scatter is a left fold over the update indices, each step overwriting the one result element its update
  index lands at.  Read at a fixed index, such a fold keeps the initial value when no update index lands there,
  and holds update `j`'s value when `j` is the only update index landing there.  For this record every window
  starts at row 0, column 0, so update index `(a, b)` lands at result index `(a, b)`: injective, onto the rows
  below 100, and missing the rows from 100 on.
-/
import proofs.«410400_j68771016343846_3_alg».proof.KernelIdeal
import Idealize.ShloMosaic.Lib.ValueIdx

noncomputable section

namespace Cert.CenterLoss

open Idealize.ShloMosaic Idealize.ShloMosaic.ValueIdx Cert.KernelIdeal

/-! ## A fold of single-element overwrites, read at one index -/

/-- A left fold whose step changes the value at `i'` only for a list element that targets `i'` (to that
    element's value) keeps the initial value at `i'` when no element of the list targets it. -/
private theorem foldl_read_of_not_mem {ι κ α : Type} [DecidableEq ι] (tgt : κ → Option ι) (val : κ → α)
    (step : (ι → α) → κ → ι → α) (i' : ι)
    (hstep : ∀ r n, step r n i' = if tgt n = some i' then val n else r i')
    (L : List κ) (x : ι → α) (h : ∀ n ∈ L, tgt n ≠ some i') : L.foldl step x i' = x i' := by
  induction L generalizing x with
  | nil => rfl
  | cons a L ih =>
    rw [List.foldl_cons, ih _ (fun n hn => h n (List.mem_cons_of_mem _ hn)), hstep,
      if_neg (h a (List.mem_cons_self ..))]

/-- … and holds the value of `n` at `i'` when `n` is in the list and is the only element targeting `i'`:
    after the last occurrence of `n` nothing else writes there. -/
private theorem foldl_read_of_mem {ι κ α : Type} [DecidableEq ι] (tgt : κ → Option ι) (val : κ → α)
    (step : (ι → α) → κ → ι → α) (i' : ι)
    (hstep : ∀ r n, step r n i' = if tgt n = some i' then val n else r i')
    (n : κ) (hn : tgt n = some i') (huniq : ∀ m, tgt m = some i' → m = n)
    (L : List κ) (x : ι → α) (hL : n ∈ L) : L.foldl step x i' = val n := by
  induction L generalizing x with
  | nil => cases hL
  | cons a L ih =>
    rw [List.foldl_cons]
    by_cases hnL : n ∈ L
    · exact ih _ hnL
    · have ha : a = n := by
        rcases List.mem_cons.1 hL with h | h
        · exact h.symm
        · exact absurd h hnL
      have hnone : ∀ m ∈ L, tgt m ≠ some i' := fun m hm hmt => hnL (by rw [← huniq m hmt]; exact hm)
      rw [foldl_read_of_not_mem tgt val step i' hstep L _ hnone, hstep, ha, if_pos hn]

/-! ## The scatter whose body returns the update, read at one index -/

/-- One step of the scatter's fold, read at `i'`: update number `n`'s value when its update index lands at
    `i'`, the accumulator's otherwise. -/
private theorem scatter_step_read {α : Type} {s si u : Shape} {w : Nat} (D : ScatterDims s si u)
    (idx : IVec si w) (upd : u.Idx → α) (i' : s.Idx) (r : s.Idx → α) (n : Fin u.numel) :
    (match D.resultIdx? (u.rowMajor.symm n) idx with
      | some i => fun i' => if i' = i then (fun _ b => b) (r i) (upd (u.rowMajor.symm n)) else r i'
      | none => r) i'
      = if D.resultIdx? (u.rowMajor.symm n) idx = some i' then upd (u.rowMajor.symm n) else r i' := by
  cases D.resultIdx? (u.rowMajor.symm n) idx with
  | none => simp
  | some i =>
    by_cases h : i' = i
    · subst h; simp
    · simp [h, Ne.symm h]

/-- The scatter read at an index no update index lands at: the operand's element. -/
private theorem scatter_read_of_not_mem {α : Type} {s si u : Shape} {w : Nat} (D : ScatterDims s si u) (x : s.Idx → α)
    (idx : IVec si w) (upd : u.Idx → α) (i' : s.Idx) (h : ∀ j, D.resultIdx? j idx ≠ some i') :
    Host.scatter D (fun _ b => b) x idx upd i' = x i' := by
  unfold Host.scatter
  exact foldl_read_of_not_mem (fun n => D.resultIdx? (u.rowMajor.symm n) idx) (fun n => upd (u.rowMajor.symm n)) _ i'
    (fun r n => scatter_step_read D idx upd i' r n) _ x (fun n _ => h _)

/-- The scatter read at an index exactly one update index `j` lands at: the update's element at `j`. -/
private theorem scatter_read_of_mem {α : Type} {s si u : Shape} {w : Nat} (D : ScatterDims s si u) (x : s.Idx → α)
    (idx : IVec si w) (upd : u.Idx → α) (i' : s.Idx) (j : u.Idx) (hj : D.resultIdx? j idx = some i')
    (huniq : ∀ j', D.resultIdx? j' idx = some i' → j' = j) :
    Host.scatter D (fun _ b => b) x idx upd i' = upd j := by
  unfold Host.scatter
  refine (foldl_read_of_mem (fun n => D.resultIdx? (u.rowMajor.symm n) idx) (fun n => upd (u.rowMajor.symm n)) _ i'
    (fun r n => scatter_step_read D idx upd i' r n) (u.rowMajor j) ?_ ?_ (List.finRange u.numel) x
    (List.mem_finRange _)).trans ?_
  · show D.resultIdx? (u.rowMajor.symm (u.rowMajor j)) idx = some i'
    rw [Equiv.symm_apply_apply]; exact hj
  · intro m hm
    rw [← huniq _ hm, Equiv.apply_symm_apply]
  · show upd (u.rowMajor.symm (u.rowMajor j)) = upd j
    rw [Equiv.symm_apply_apply]

/-! ## Where this record's update indices land -/

section Record
variable [Cert.KernelIdeal.Facts₀]

/-- The scatter indices have one entry, so every start component is read at that entry. -/
private theorem siIdx_eq (j : S100x128.Idx)
    (c : Fin scatter_S128x128_S1_S100x128_01_n_0_0.scatterDimsToOperandDims.length) :
    scatter_S128x128_S1_S100x128_01_n_0_0.siIdx j c = ix1 (0 : Fin 1) := by
  funext b
  match b with
  | ⟨0, _⟩ =>
    apply Fin.ext
    show c.val = 0
    have hc : c.val < 1 := c.isLt
    omega

/-- Every window starts at 0 on both operand axes: row axis by the index word being 0, column axis because
    the map names no scatter index for it. -/
private theorem start_eq_zero (idx : IVec S1 32) (hidx : idx (ix1 (0 : Fin 1)) = 0#32) (j : S100x128.Idx) (a : Fin 2) :
    scatter_S128x128_S1_S100x128_01_n_0_0.start j idx a = 0 := by
  match a with
  | ⟨0, _⟩ =>
    show (idx (scatter_S128x128_S1_S100x128_01_n_0_0.siIdx j ⟨0, _⟩)).toInt = 0
    rw [siIdx_eq, hidx]; rfl
  | ⟨1, _⟩ => rfl

/-- No operand axis is inserted, so the window coordinate on axis `a` is the update index's coordinate `a`. -/
private theorem window_eq (j : S100x128.Idx) (a : Fin 2) :
    scatter_S128x128_S1_S100x128_01_n_0_0.window j a = (j a).val := by
  match a with
  | ⟨0, _⟩ => rfl
  | ⟨1, _⟩ => rfl

/-- Update index `j` lands inside the operand, at the result index with `j`'s own coordinates. -/
private theorem resultIdx_eq (idx : IVec S1 32) (hidx : idx (ix1 (0 : Fin 1)) = 0#32) (j : S100x128.Idx) :
    scatter_S128x128_S1_S100x128_01_n_0_0.resultIdx? j idx
      = some (ix2 (⟨(j 0).val, by have := idx2_lt0 j; omega⟩ : Fin 128) (j 1)) := by
  have hs := start_eq_zero idx hidx j
  have hw := window_eq j
  have h0 := idx2_lt0 j
  have h1 := idx2_lt1 j
  unfold ScatterDims.resultIdx?
  rw [dif_pos (by
    intro a
    rw [hs a, hw a]
    match a with
    | ⟨0, _⟩ => exact ⟨by omega, by show (0 : Int) + ((j 0).val : Int) < ((128 : Nat) : Int); omega⟩
    | ⟨1, _⟩ => exact ⟨by omega, by show (0 : Int) + ((j 1).val : Int) < ((128 : Nat) : Int); omega⟩)]
  congr 1
  funext a
  match a with
  | ⟨0, p⟩ =>
    apply Fin.ext
    show (scatter_S128x128_S1_S100x128_01_n_0_0.start j idx ⟨0, p⟩
      + (scatter_S128x128_S1_S100x128_01_n_0_0.window j ⟨0, p⟩ : Int)).toNat = (j 0).val
    rw [hs, hw]; simp
  | ⟨1, p⟩ =>
    apply Fin.ext
    show (scatter_S128x128_S1_S100x128_01_n_0_0.start j idx ⟨1, p⟩
      + (scatter_S128x128_S1_S100x128_01_n_0_0.window j ⟨1, p⟩ : Int)).toNat = (j 1).val
    rw [hs, hw]; simp

end Record

/-- The scatter of a 100-row update into a 128-row operand at start row 0 (the body returns the update), read at
    row `k`, column `d`: the update's entry when `k < 100`, the operand's otherwise. -/
theorem padded_table_apply {α : Type} [Cert.KernelIdeal.Facts₀] (z : S128x128.Idx → α) (idx : IVec S1 32) (u : S100x128.Idx → α)
    (hidx : idx (ix1 (0 : Fin 1)) = 0#32) (k : Fin 128) (d : Fin 128) :
    Host.scatter scatter_S128x128_S1_S100x128_01_n_0_0 (fun _ b => b) z idx u (ix2 k d)
      = if h : k.val < 100 then u (ix2 ⟨k.val, h⟩ d) else z (ix2 k d) := by
  by_cases h : k.val < 100
  · rw [dif_pos h]
    refine scatter_read_of_mem _ z idx u (ix2 k d) (ix2 ⟨k.val, h⟩ d) ?_ ?_
    · rw [resultIdx_eq idx hidx]; rfl
    · intro j' hj'
      rw [resultIdx_eq idx hidx] at hj'
      have he := Option.some.inj hj'
      have e0 : (j' 0).val = k.val := congrArg Fin.val (congrFun he 0)
      have e1 : j' 1 = d := congrFun he 1
      rw [eq_ix2 j']
      congr 1
      exact Fin.ext e0
  · rw [dif_neg h]
    refine scatter_read_of_not_mem _ z idx u (ix2 k d) (fun j hj => ?_)
    rw [resultIdx_eq idx hidx] at hj
    have e0 : (j 0).val = k.val := congrArg Fin.val (congrFun (Option.some.inj hj) 0)
    have := idx2_lt0 j
    omega

end Cert.CenterLoss

end
-- ==== Proof.Blocks.lean ====
/-
  The blocks of tile t, read off the arrays the region finds.

  Tile t's features are rows 8192 t .. 8192 t + 8191 of the feature array; its labels are rows 64 t .. 64 t + 63 of
  the label array reshaped to 4096 × 128, that is labels 8192 t + 128 a + b at (a, b), each already clamped between
  0 and 99 by the host prefix; its table is the whole padded table, whose rows below 100 are the centres.
-/
import proofs.«410400_j68771016343846_3_alg».proof.Proof.TileBlocks
import proofs.«410400_j68771016343846_3_alg».proof.Proof.PaddedTable
import Idealize.ShloMosaic.Lib.StableHlo.Run
import Idealize.ShloMosaic.Lib.Pipeline.Value
import Idealize.ShloMosaic.Lib.ValueIdx

set_option maxRecDepth 16384

noncomputable section

namespace Cert.CenterLoss

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.KernelIdeal Cert.KernelIdeal.Gen

variable (m : (ℓ : Loc nD τ sig) → Buf (Elt Ideal) ℓ)

/-- Where each window's block sits, decided over the 64 tiles: the feature and label blocks at block row t, the table
    at the origin, the output block at block t / 32 of the leading axis. -/
theorem idx_facts : ∀ t : Fin cfg0.N, win0_0.index t 0 = t.val ∧ win0_0.index t 1 = 0 ∧ win0_1.index t 0 = t.val ∧ win0_1.index t 1 = 0
    ∧ win0_2.index t 0 = 0 ∧ win0_2.index t 1 = 0 ∧ win0_3.index t 0 = t.val / 32 ∧ win0_3.index t 1 = 0 ∧ win0_3.index t 2 = 0 :=
  (by decide +kernel : ∀ t : Fin grid0.N, _)

/-- Tile t's feature block is rows 8192 t + r of the feature array. -/
theorem fblk_apply (c : Dev nD) (t : Fin cfg0.N) (r : Fin 8192) (d : Fin 128) :
    fblk m c t (ix2 r d)
      = (V m c main_arg0 : S524288x128.Idx → EReal) (ix2 (⟨8192 * t.val + r.val, by have := t.isLt; have : cfg0.N = 64 := N_0; omega⟩ : Fin 524288) d) := by
  have hi := idx_facts t
  unfold fblk iblk
  rw [View.read_apply]
  show V m c main_arg0 _ = V m c main_arg0 _
  congr 1
  funext a
  apply Fin.ext
  match a with
  | ⟨0, _⟩ => show win0_0.index t 0 * 8192 + 1 * r.val = 8192 * t.val + r.val; rw [hi.1]; omega
  | ⟨1, _⟩ => show win0_0.index t 1 * 128 + 1 * d.val = d.val; rw [hi.2.1]; omega

/-- Tile t's label block is rows 64 t + a of the reshaped label array. -/
theorem lblk_apply (c : Dev nD) (t : Fin cfg0.N) (a : Fin 64) (b : Fin 128) :
    lblk m c t (ix2 a b)
      = (V m c main_v5 : S4096x128.Idx → BitVec 32) (ix2 (⟨64 * t.val + a.val, by have := t.isLt; have : cfg0.N = 64 := N_0; omega⟩ : Fin 4096) b) := by
  have hi := idx_facts t
  unfold lblk iblk
  rw [View.read_apply]
  show V m c main_v5 _ = V m c main_v5 _
  congr 1
  funext x
  apply Fin.ext
  match x with
  | ⟨0, _⟩ => show win0_1.index t 0 * 64 + 1 * a.val = 64 * t.val + a.val; rw [hi.2.2.1]; omega
  | ⟨1, _⟩ => show win0_1.index t 1 * 128 + 1 * b.val = b.val; rw [hi.2.2.2.1]; omega

/-- Every tile's table block is the whole padded table. -/
theorem tblk_apply (c : Dev nD) (t : Fin cfg0.N) (k : Fin 128) (d : Fin 128) :
    tblk m c t (ix2 k d) = (V m c main_v4 : S128x128.Idx → EReal) (ix2 k d) := by
  have hi := idx_facts t
  unfold tblk iblk
  rw [View.read_apply]
  show V m c main_v4 _ = V m c main_v4 _
  congr 1
  funext x
  apply Fin.ext
  match x with
  | ⟨0, _⟩ => show win0_2.index t 0 * 128 + 1 * k.val = k.val; rw [hi.2.2.2.2.1]; omega
  | ⟨1, _⟩ => show win0_2.index t 1 * 128 + 1 * d.val = d.val; rw [hi.2.2.2.2.2.1]; omega

/-- The label array the region finds: the labels clamped from below by 0, then from above by 99, reshaped to 4096 × 128. -/
theorem V_labels (c : Dev nD) :
    V m c main_v5 = shapeCast S4096x128 (minsi (broadcastInDim S524288 ![] bcast_S_S524288 (constantI S_ 32 99#32))
      (maxsi (broadcastInDim S524288 ![] bcast_S_S524288 (constantI S_ 32 0#32)) (m ((c : Thread nD τ).loc main_arg1))))
      shapeCasts_S524288_S4096x128 := by
  dsimp only [Gen.V, Gen.V0]
  simp only [Gen.hostOps0, Gen.hostOps0_1, Gen.hostOps0_2, List.flatten_cons, List.flatten_nil, List.append_nil, List.cons_append, List.nil_append]
  after_results
  rfl

/-- The table the region finds: the centres written into a 128-row table of zeros at row 0. -/
theorem V_table (c : Dev nD) :
    V m c main_v4 = Host.scatter scatter_S128x128_S1_S100x128_01_n_0_0 (fun _ b => b)
      (broadcastInDim S128x128 ![] bcast_S_S128x128 (constant (F := Ideal) S_ .bf16 0x0000#16))
      (broadcastInDim S1 ![] bcast_S_S1 (constantI S_ 32 0#32))
      (truncf .bf16 (m ((c : Thread nD τ).loc main_arg2)) bitsLt_bf16_f32) := by
  dsimp only [Gen.V, Gen.V0]
  simp only [Gen.hostOps0, Gen.hostOps0_1, Gen.hostOps0_2, List.flatten_cons, List.flatten_nil, List.append_nil, List.cons_append, List.nil_append]
  after_results

/-- The reshaped label array at (A, b): label 128 A + b, clamped. -/
theorem labels_entry (c : Dev nD) (A : Fin 4096) (b : Fin 128) :
    (V m c main_v5 : S4096x128.Idx → BitVec 32) (ix2 A b)
      = IntOp.minsi (99#32 : BitVec 32) (IntOp.maxsi (0#32 : BitVec 32)
          ((m ((c : Thread nD τ).loc main_arg1) : S524288.Idx → BitVec 32) (ix1 (⟨128 * A.val + b.val, by omega⟩ : Fin 524288)))) := by
  rw [V_labels m c]
  rw [shapeCast_apply _ shapeCasts_S524288_S4096x128 (ix2 A b) (ix1 (⟨128 * A.val + b.val, by omega⟩ : Fin 524288))
    (by rw [Shape.rowMajor_val_one, Shape.rowMajor_val_two]; show 128 * A.val + b.val = A.val * 128 + b.val; omega)]
  show IntOp.minsi _ _ = _
  rw [broadcastInDim_apply _ bcast_S_S524288 _ _ ix0 (fun a => a.elim0)]
  show IntOp.minsi 99#32 (IntOp.maxsi _ _) = _
  rw [broadcastInDim_apply _ bcast_S_S524288 _ _ ix0 (fun a => a.elim0)]
  rfl

/-- The padded table at (k, d): centre k when k < 100, zero past the centres. -/
theorem table_entry (c : Dev nD) (k : Fin 128) (d : Fin 128) :
    (V m c main_v4 : S128x128.Idx → EReal) (ix2 k d)
      = (if h : k.val < 100 then (m ((c : Thread nD τ).loc main_arg2) : S100x128.Idx → EReal) (ix2 ⟨k.val, h⟩ d) else 0 : EReal) := by
  rw [V_table m c]
  rw [padded_table_apply _ _ _ (by rw [broadcastInDim_apply _ bcast_S_S1 _ _ ix0 (fun a => a.elim0)]; rfl) k d]
  split
  · rfl
  · rw [broadcastInDim_apply _ bcast_S_S128x128 _ _ ix0 (fun a => a.elim0)]
    show Ideal.ofBits .bf16 0x0000#16 = 0
    simp [Ideal.ofBits, Ideal.ieee]

end Cert.CenterLoss

end
-- ==== Proof.OutArray.lean ====
/-
  The output array after the region.  It has one 8 × 128 block per half; the half's last tile (position 31) is the only
  one that writes the block back, and what it writes holds the half's sum of tile sums at every entry.  The two
  blocks tile the array, so the array ends holding, at (h, p, q), the sum over half h's 32 tiles.
-/
import proofs.«410400_j68771016343846_3_alg».proof.Proof.Fold
import proofs.«410400_j68771016343846_3_alg».proof.Proof.Blocks
import Idealize.ShloMosaic.Lib.Pipeline.Value

set_option maxRecDepth 16384

noncomputable section

namespace Cert.CenterLoss

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.KernelIdeal Cert.KernelIdeal.Gen

variable (m : (ℓ : Loc nD τ sig) → Buf (Elt Ideal) ℓ)

/-- Half `h`'s sum of its 32 tiles' sums of squared distances (as the accumulator builds it, from zero). -/
def halfSum (c : Dev nD) (h : ℕ) : EReal := 0 + ∑ s ∈ Finset.range 32, tileAt m c (32 * h + s)

/-- What the output array ends holding: at (h, p, q) half h's sum. -/
abbrev outG (c : Dev nD) : S2x8x128.Idx → EReal := fun i => halfSum m c (i 0).val

/-- What a writing tile writes back is its block of that array. -/
theorem flushed3_eq (c : Dev nD) (t : Fin cfg0.N) (hf : (cfg0.win 3).flush t = true) :
    (dats m 0 c).flushed 3 t = ((cfg0.win 3).blk t).view.read (Elt Ideal) (outG m c) := by
  have h1 : t.val % 32 = 31 := (flush0_3 t).mp hf
  have hi := idx_facts t
  show (cfg0.win 3).cut (grid0.coords t) ((dats m 0 c).after 3 t) = _
  rw [after0_3]
  funext j
  show (outsAt0 m c t.val t.isLt).1 j = halfSum m c (win0_3.index t 0 * 1 + 1 * (j 0).val)
  have hj0 : (j 0).val = 0 := by have : (j 0).val < 1 := (j 0).isLt; omega
  have hj : (j : S1x8x128.Idx) = ix3 (j 0 : Fin 1) (j 1 : Fin 8) (j 2 : Fin 128) := eq_ix3 (n0 := 1) (n1 := 8) (n2 := 128) j
  have key : (outsAt0 m c t.val t.isLt).1 j = 0 + ∑ s ∈ Finset.range 32, tileAt m c (32 * (t.val / 32) + s) :=
    (congrArg (outsAt0 m c t.val t.isLt).1 hj).trans (out_fold m c t h1 (j 0) (j 1) (j 2))
  rw [key, hi.2.2.2.2.2.2.1, hj0]
  unfold halfSum
  rw [show t.val / 32 * 1 + 1 * 0 = t.val / 32 from by omega]

/-- An index is in tile t's output block iff, axis by axis, it lies in the block's range. -/
theorem mem_blk3 (t : Fin cfg0.N) (i : S2x8x128.Idx) :
    i ∈ ((cfg0.win 3).blk t).view.set ↔ ∀ a : Fin 3, win0_3.index t a * S1x8x128.size a ≤ (i a).val ∧ (i a).val < win0_3.index t a * S1x8x128.size a + S1x8x128.size a := by
  show i ∈ ((View.whole main_v6).slice (win0_3.rect t)).set ↔ _
  rw [View.set_slice_whole, Rect.mem_set_unit]
  exact Iff.rfl

/-- Every index of the output array is in the block some half's last tile writes back. -/
theorem cover3 (i : S2x8x128.Idx) : ∃ t : Fin cfg0.N, (cfg0.win 3).flush t = true ∧ i ∈ ((cfg0.win 3).blk t).view.set := by
  have hN : cfg0.N = 64 := N_0
  have h0 : (i 0).val < 2 := (i 0).isLt
  have h1 : (i 1).val < 8 := (i 1).isLt
  have h2 : (i 2).val < 128 := (i 2).isLt
  refine ⟨⟨32 * (i 0).val + 31, by omega⟩, (flush0_3 _).mpr (by show (32 * (i 0).val + 31) % 32 = 31; omega), ?_⟩
  rw [mem_blk3]
  have hi := idx_facts ⟨32 * (i 0).val + 31, by omega⟩
  intro a
  match a with
  | ⟨0, _⟩ =>
    show win0_3.index _ 0 * 1 ≤ (i 0).val ∧ (i 0).val < win0_3.index _ 0 * 1 + 1
    rw [hi.2.2.2.2.2.2.1]; show (32 * (i 0).val + 31) / 32 * 1 ≤ (i 0).val ∧ (i 0).val < (32 * (i 0).val + 31) / 32 * 1 + 1; omega
  | ⟨1, _⟩ =>
    show win0_3.index _ 1 * 8 ≤ (i 1).val ∧ (i 1).val < win0_3.index _ 1 * 8 + 8
    rw [hi.2.2.2.2.2.2.2.1]; omega
  | ⟨2, _⟩ =>
    show win0_3.index _ 2 * 128 ≤ (i 2).val ∧ (i 2).val < win0_3.index _ 2 * 128 + 128
    rw [hi.2.2.2.2.2.2.2.2]; omega

/-- THE OUTPUT ARRAY after the region: each half's sum, at every entry of the half's block. -/
theorem out_array (c : Dev nD) : (dats m 0 c).arrAt 3 cfg0.N = outG m c :=
  (dats m 0 c).arrAt_eq_of_cover 3 (outG m c) (fun t hf => flushed3_eq m c t hf) (cover3)

end Cert.CenterLoss

end
-- ==== Proof.Labels.lean ====
/-
  Label words.  The kernel's host prefix clamps a label word between 0 and 99 as signed integers; read as a natural
  number the result is `cls` of the word, whatever the word.  And the added conjunct of the precondition says that no
  label is negative.
-/
import proofs.«410400_j68771016343846_3_alg».proof.Pre_finite_inputs
import proofs.«410400_j68771016343846_3_alg».proof.Proof.Gen.Pre_finite_inputs
import proofs.«410400_j68771016343846_3_alg».proof.Proof.Spec
import Idealize.ShloMosaic.Lib.ReduceAll
import Idealize.ShloMosaic.Lib.StableHlo.Predicate
import Idealize.ShloMosaic.Lib.ValueIdx

noncomputable section

namespace Cert.CenterLoss

open Idealize.ShloMosaic Idealize.ShloMosaic.ValueIdx

/-- A label word clamped to `[0, 99]` (first from below, then from above) reads, unsigned, as its class. -/
theorem clip_word_toNat (l : BitVec 32) : (IntOp.minsi (99#32 : BitVec 32) (IntOp.maxsi (0#32 : BitVec 32) l)).toNat = cls l := by
  have h0 : (0#32 : BitVec 32).toInt = 0 := by decide
  have h99 : (99#32 : BitVec 32).toInt = 99 := by decide
  have hl := BitVec.toInt_eq_toNat_cond l
  have hlt := l.isLt
  unfold cls
  by_cases hneg : l.toInt < 0
  · -- a negative word clamps to 0
    have hmax : IntOp.maxsi (0#32 : BitVec 32) l = 0#32 := by
      unfold IntOp.maxsi
      rw [if_pos (by simp only [BitVec.slt, h0, decide_eq_true_eq]; exact hneg)]
    rw [hmax]
    have hmin : IntOp.minsi (99#32 : BitVec 32) (0#32 : BitVec 32) = 0#32 := by decide
    rw [hmin]
    simp only [BitVec.toNat_ofNat]
    omega
  · have hmax : IntOp.maxsi (0#32 : BitVec 32) l = l := by
      unfold IntOp.maxsi
      rw [if_neg (by simp only [BitVec.slt, h0, decide_eq_true_eq]; exact hneg)]
    rw [hmax]
    unfold IntOp.minsi
    by_cases hbig : 99 < l.toInt
    · -- a word above 99 clamps to 99
      rw [if_pos (by simp only [BitVec.slt, h99, decide_eq_true_eq]; exact hbig)]
      simp only [BitVec.toNat_ofNat]
      omega
    · -- a word in [0, 99] is kept, and reads the same signed and unsigned
      rw [if_neg (by simp only [BitVec.slt, h99, decide_eq_true_eq]; exact hbig)]
      split at hl <;> omega

/-- Under the precondition no label is negative. -/
theorem labels_nonneg [Cert.Pre_finite_inputs.Facts] (x0 : FVec Ideal Cert.Pre_finite_inputs.S524288x128 .f32)
    (x1 : IVec Cert.Pre_finite_inputs.S524288 32) (x2 : FVec Ideal Cert.Pre_finite_inputs.S100x128 .f32)
    (h : Cert.Pre_finite_inputs.fn (F := Ideal) x0 x1 x2 = fun _ => 1#1) (n : Fin 524288) : 0 ≤ (x1 (ix1 n)).toInt := by
  -- the predicate at its one index is a conjunction of 1-bit words; its last conjunct is "every label ≥ 0"
  have h1 := congrFun h ValueIdx.ix0
  dsimp only [Cert.Pre_finite_inputs.fn] at h1
  obtain ⟨_, h2⟩ := IntOp.andi_eq_one.1 h1
  -- a conjunction over all samples that is 1 is 1 at sample n: the signed compare of the label with the constant 0
  haveI : Subsingleton Cert.Pre_finite_inputs.S_.Idx := ⟨fun a b => funext fun d => d.elim0⟩
  have h3 := Host.reduce_andi_all _ _ _ _ _ h2 (ix1 n)
  have h4 := IntOp.cmpi_sge.1 h3
  simpa [broadcastInDim, constantI] using h4

end Cert.CenterLoss

end
-- ==== Proof.TileSum.lean ====
/-
  A tile's sum of squared distances is the sum, over its 8192 samples and the 128 features, of the per-sample squared
  distances of the whole problem: sample r of tile t is sample 8192 t + r; its label word sits at
  (64 t + r / 128, r % 128) of the reshaped, clamped label array, and the clamped word read as a number is the
  sample's class; that class is below 100, where the padded table holds the centres.
-/
import proofs.«410400_j68771016343846_3_alg».proof.Proof.Blocks
import proofs.«410400_j68771016343846_3_alg».proof.Proof.Labels

set_option maxRecDepth 16384

noncomputable section

namespace Cert.CenterLoss

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.KernelIdeal Cert.KernelIdeal.Gen

variable (m : (ℓ : Loc nD τ sig) → Buf (Elt Ideal) ℓ)

/-- The three argument arrays at their literal types. -/
abbrev featArr (c : Dev nD) : S524288x128.Idx → EReal := m ((c : Thread nD τ).loc main_arg0)
abbrev labArr (c : Dev nD) : S524288.Idx → BitVec 32 := m ((c : Thread nD τ).loc main_arg1)
abbrev cenArr (c : Dev nD) : S100x128.Idx → EReal := m ((c : Thread nD τ).loc main_arg2)

/-- The padded table's row n is the centres' row n, for n below 100. -/
theorem rowAt_table (c : Dev nD) (t : Fin cfg0.N) (n : ℕ) (hn : n < 100) (d : Fin 128) :
    rowAt (tblk m c t) n d = rowAt (cenArr m c) n d := by
  rw [rowAt_of_lt _ n (by omega : n < 128), rowAt_of_lt _ n hn, tblk_apply, table_entry, dif_pos hn]

theorem tileAt_eq (c : Dev nD) (t : Fin cfg0.N) :
    tileAt m c t.val = ∑ r : Fin 8192, ∑ d : Fin 128,
      sqErr (featArr m c) (labArr m c) (cenArr m c)
        (⟨8192 * t.val + r.val, by have := t.isLt; have : cfg0.N = 64 := N_0; omega⟩ : Fin 524288) d := by
  have hN : cfg0.N = 64 := N_0
  rw [tileAt_of_lt m c t.val t.isLt]
  unfold tileErr sqErr
  refine Finset.sum_congr rfl fun r _ => Finset.sum_congr rfl fun d _ => ?_
  have hr := r.isLt
  have ht := t.isLt
  have e : (⟨128 * (64 * t.val + r.val / 128) + r.val % 128, by omega⟩ : Fin 524288) = ⟨8192 * t.val + r.val, by omega⟩ :=
    Fin.ext (by show 128 * (64 * t.val + r.val / 128) + r.val % 128 = 8192 * t.val + r.val; omega)
  have hl : (lblk m c ⟨t.val, t.isLt⟩ (ix2 (⟨r.val / 128, by omega⟩ : Fin 64) (⟨r.val % 128, by omega⟩ : Fin 128))).toNat
      = cls (labArr m c (ix1 (⟨8192 * t.val + r.val, by omega⟩ : Fin 524288))) := by
    rw [lblk_apply, labels_entry, clip_word_toNat]
    exact congrArg (fun n => cls (labArr m c (ix1 n))) e
  rw [hl, rowAt_table m c _ _ (cls_lt _), fblk_apply, V_main_arg0 m c]

end Cert.CenterLoss

end
-- ==== Proof.Regroup.lean ====
/-
  Two facts that join the kernel's arrangement of the sum to the reference's.

  The 524288 samples are 2 halves of 32 tiles of 8192 samples: sample `8192 · (32 c + s) + r` is sample `r` of tile
  `s` of half `c`, so the sum over all samples is the sum over halves, tiles and samples in a tile (sums over the
  extended reals may be regrouped freely: addition is commutative and associative there).  And the two scale
  literals are 2⁻²⁶ and 2²⁶.
-/
import Idealize.ShloMosaic.PureOps.Ideal
import Idealize.ShloMosaic.PureOps.Ideal.Laws

noncomputable section

namespace Cert.CenterLoss

open Idealize.ShloMosaic

/-- A sum over `Fin N` with `N = a · b`, grouped into `a` blocks of `b` consecutive indices: index `b · i + j` is
    entry `j` of block `i`. -/
private theorem sum_blocks {N : ℕ} (a b : ℕ) (h : a * b = N) (f : Fin N → EReal) :
    ∑ n : Fin N, f n
      = ∑ i : Fin a, ∑ j : Fin b,
          f ⟨b * i.val + j.val, by
            have hi := i.isLt; have hj := j.isLt
            calc b * i.val + j.val < b * i.val + b := by omega
              _ = b * (i.val + 1) := by ring
              _ ≤ b * a := Nat.mul_le_mul_left _ hi
              _ = N := by rw [Nat.mul_comm, h]⟩ := by
  subst h
  rw [← (finProdFinEquiv (m := a) (n := b)).sum_comp f, Fintype.sum_prod_type]
  refine Finset.sum_congr rfl fun i _ => Finset.sum_congr rfl fun j _ => ?_
  congr 1
  ext
  simp [finProdFinEquiv]
  omega

/-- The sum over all samples, by half, tile and sample in the tile. -/
theorem sum_by_tiles (e : Fin 524288 → Fin 128 → EReal) :
    ∑ n : Fin 524288, ∑ d : Fin 128, e n d
      = ∑ c : Fin 2, ∑ s : Fin 32, ∑ r : Fin 8192, ∑ d : Fin 128,
          e ⟨8192 * (32 * c.val + s.val) + r.val, by have := c.isLt; have := s.isLt; have := r.isLt; omega⟩ d := by
  rw [sum_blocks 64 8192 (by norm_num) (fun n => ∑ d : Fin 128, e n d)]
  rw [sum_blocks 2 32 (by norm_num)
    (fun t : Fin 64 => ∑ r : Fin 8192, ∑ d : Fin 128, e ⟨8192 * t.val + r.val, by
      have := t.isLt; have := r.isLt; omega⟩ d)]

/-- The kernel's scale literal is 2⁻²⁶. -/
theorem ofBits_inv_2p26 : Ideal.ofBits .f32 0x32800000#32 = (((1 / 67108864 : ℝ) : ℝ) : EReal) := by
  simp [Ideal.ofBits, Ideal.ieee, -EReal.coe_mul]; norm_num

/-- The reference's divisor literal is 2²⁶. -/
theorem ofBits_2p26 : Ideal.ofBits .f32 0x4C800000#32 = ((67108864 : ℝ) : EReal) := by
  simp [Ideal.ofBits, Ideal.ieee, -EReal.coe_mul]; norm_num

end Cert.CenterLoss

end
-- ==== Proof.KernelValue.lean ====
/-
  The kernel program's two results.

  After the region the host takes entry (h, 0, 0) of each half's block, adds the two, and multiplies by 2⁻²⁶: with
  each half's entry its sum of tile sums, and each tile sum its samples' squared distances, that is the sum of all
  squared distances times 2⁻²⁶.  The second result is computed from the centres alone by the same host operations
  as the reference's second result.
-/
import proofs.«410400_j68771016343846_3_alg».proof.Proof.OutArray
import proofs.«410400_j68771016343846_3_alg».proof.Proof.TileSum
import proofs.«410400_j68771016343846_3_alg».proof.Proof.Regroup
import proofs.«410400_j68771016343846_3_alg».proof.Proof.Gen.ReferenceIdeal.Read
import Idealize.ShloMosaic.Lib.StableHlo.Run
import Idealize.ShloMosaic.PureOps.Ideal.Laws

set_option maxRecDepth 16384

noncomputable section

namespace Cert.CenterLoss

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.KernelIdeal Cert.KernelIdeal.Gen

variable (m : (ℓ : Loc nD τ sig) → Buf (Elt Ideal) ℓ)

/-- A sum over the indices of a rank-1 shape is the sum over its one coordinate. -/
theorem sum_idx1 {M : Type*} [AddCommMonoid M] {n : Nat} (f : (⟨1, ![n]⟩ : Shape).Idx → M) :
    ∑ i, f i = ∑ a : Fin n, f (ix1 a) :=
  Fintype.sum_equiv ⟨fun i => i 0, fun a => ix1 a, fun i => (eq_ix1 i).symm, fun _ => rfl⟩ _ _
    fun i => congrArg f (eq_ix1 i)

/-- The output array as the host tail finds it. -/
theorem tail_out (c : Dev nD) :
    Pipeline.withArrays (cfgs 0).spec c (V0 m c) (fun w => (dats m 0 c).arrAt w (cfgs 0).N) (Proc.devRef .tc main_v6) = outG m c :=
  (Pipeline.withArrays_arr spec0 launch0.win.arr_inj c (V0 m c) (fun w => (dats m 0 c).arrAt w cfg0.N) 3).trans (out_array m c)

/-- The centres as the host tail finds them. -/
theorem tail_cen (c : Dev nD) :
    Pipeline.withArrays (cfgs 0).spec c (V0 m c) (fun w => (dats m 0 c).arrAt w (cfgs 0).N) (Proc.devRef .tc main_arg2) = cenArr m c :=
  (Pipeline.withArrays_of_ne _ c (V0 m c) _ main_arg2 (by exact (by decide : ∀ w, Pipeline.arrRef spec0 w ≠ main_arg2))).trans (V_main_arg2 m c)

/-- The first result: the two halves' sums added, times the scale literal. -/
theorem tail_loss (c : Dev nD) (i : S_.Idx) :
    Pipeline.afterTail₀ cfgs (dats m) 0 (V0 m) [hostOps1, hostOps1_1, hostOps1_2, hostOps1_3, hostOps1_4] c main_v10 i
      = (0 + ∑ k : Fin 2, halfSum m c k.val) * Ideal.ofBits .f32 0x32800000#32 := by
  unfold Pipeline.afterTail₀
  simp only [Gen.hostOps1, Gen.hostOps1_1, Gen.hostOps1_2, Gen.hostOps1_3, Gen.hostOps1_4, List.flatten_cons, List.flatten_nil, List.append_nil, List.cons_append, List.nil_append]
  after_results
  rw [tail_out m c]
  refine congrArg₂ (· * ·) ?_ rfl
  simp only [Host.reduceAdd, Ideal.hostReduceAdd_def]
  rw [Ideal.hostReduceAdd_total reducesTo_S2_S_d0 (fun b => b.elim0)]
  refine congrArg₂ (· + ·) Ideal.ofBits_zero_f32 ?_
  rw [sum_idx1]
  refine Finset.sum_congr rfl fun k _ => ?_
  show (shapeCast S2 (extractStridedSlice S2x1x1 ![0, 0, 0] (outG m c) slices_S2x8x128_S2x1x1_0_0_0) shapeCasts_S2x1x1_S2) (ix1 k) = _
  rw [shapeCast_apply _ shapeCasts_S2x1x1_S2 (ix1 k) (ix3 k (0 : Fin 1) (0 : Fin 1))
    (by rw [Shape.rowMajor_val_one, Shape.rowMajor_val_three]; show (k.val * 1 + 0) * 1 + 0 = k.val; omega)]
  rw [extractStridedSlice_apply ![0, 0, 0] _ slices_S2x8x128_S2x1x1_0_0_0 (ix3 k (0 : Fin 1) (0 : Fin 1)) (ix3 k (0 : Fin 8) (0 : Fin 128))
    (fun a => by
      match a with
      | ⟨0, _⟩ => show k.val = 0 + k.val; omega
      | ⟨1, _⟩ => show 0 = 0 + 0; rfl
      | ⟨2, _⟩ => show 0 = 0 + 0; rfl)]

/-- The second result: the reference's own term of the centres. -/
theorem tail_sep (c : Dev nD) :
    Pipeline.afterTail₀ cfgs (dats m) 0 (V0 m) [hostOps1, hostOps1_1, hostOps1_2, hostOps1_3, hostOps1_4] c main_v28
      = Cert.ReferenceIdeal.Read.val_main_v28 (F := Ideal) (cenArr m c) := by
  unfold Pipeline.afterTail₀
  simp only [Gen.hostOps1, Gen.hostOps1_1, Gen.hostOps1_2, Gen.hostOps1_3, Gen.hostOps1_4, List.flatten_cons, List.flatten_nil, List.append_nil, List.cons_append, List.nil_append]
  after_results
  rw [tail_cen m c]
  rfl

/-- The first result is the centre loss: the halves' sums are the tiles' sums, the tiles' sums the samples' squared
    distances, every sample in exactly one tile of one half; and the scale literal is 2⁻²⁶. -/
theorem kernel_loss (c : Dev nD) :
    (0 + ∑ k : Fin 2, halfSum m c k.val) * Ideal.ofBits .f32 0x32800000#32
      = meanLoss (featArr m c) (labArr m c) (cenArr m c) := by
  have hN : cfg0.N = 64 := N_0
  unfold meanLoss
  rw [ofBits_inv_2p26, zero_add, sum_by_tiles]
  congr 1
  refine Finset.sum_congr rfl fun k _ => ?_
  unfold halfSum
  rw [zero_add, Finset.sum_range]
  refine Finset.sum_congr rfl fun s _ => ?_
  exact tileAt_eq m c ⟨32 * k.val + s.val, by have := k.isLt; have := s.isLt; omega⟩

/-- THE KERNEL PROGRAM'S RUN: every weakly fair execution ends with the first result at the centre loss of the
    arguments, the second at the reference's term of the centres, and the arguments unchanged. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v10) = (fun _ => meanLoss (featArr m c) (labArr m c) (cenArr m c))
      ∧ r.2.mem ((c.tc : Thread nD τ).loc main_v28) = Cert.ReferenceIdeal.Read.val_main_v28 (F := Ideal) (cenArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v10 (Pipeline.mem_restRefs_of main_v10 (by decide) (by decide))).trans
        (funext fun i => (tail_loss m c i).trans (kernel_loss m c)),
      ((h c).2 main_v28 (Pipeline.mem_restRefs_of main_v28 (by decide) (by decide))).trans (tail_sep m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.CenterLoss

end
-- ==== Proof.RefLoss.lean ====
/-
  The reference's centre loss in closed form.

  The reference turns a negative label `l` into `l + 100` before it gathers; for a label that is not negative this
  does nothing, and the gather then clamps the row number into `[0, 99]`: the row read is `cls l`.  Its mean is the
  sum over every sample and feature divided by 2²⁶, which over the extended reals is the product with 2⁻²⁶.
-/
import proofs.«410400_j68771016343846_3_alg».proof.Proof.Gen.ReferenceIdeal.Read
import proofs.«410400_j68771016343846_3_alg».proof.Proof.Spec
import Idealize.ShloMosaic.PureOps.Ideal.Laws
import Idealize.ShloMosaic.Lib.ValueIdx

noncomputable section

namespace Cert.CenterLoss

open Idealize.ShloMosaic Idealize.ShloMosaic.ValueIdx Cert.ReferenceIdeal

/-- A word that is not negative is not below zero: the signed comparison's bit is clear. -/
private theorem cmpi_slt_zero_of_nonneg (l : BitVec 32) (h : 0 ≤ l.toInt) : IntOp.cmpi .slt l 0#32 = 0#1 := by
  unfold IntOp.cmpi
  have : l.slt 0#32 = false := by
    simp only [BitVec.slt, BitVec.toInt_zero, decide_eq_false_iff_not, not_lt]
    exact h
  rw [this]; rfl

/-- The divisor's pattern denotes 2²⁶. -/
private theorem ofBits_two_pow_26 : Ideal.ofBits .f32 0x4C800000#32 = ((67108864 : ℝ) : EReal) := by
  simp [Ideal.ofBits, Ideal.ieee, -EReal.coe_mul]; norm_num

/-- The gather of rows read at `(n, d)`: row `min (start index) 99` of the table, column `d`. -/
private theorem gather_row_apply {α : Type} (x : S100x128.Idx → α) (idx : IVec S524288x1 32) (n : Fin 524288) (d : Fin 128) :
    Host.gather gather_S100x128_S524288x1_S524288x128_1_0_n_n_0_1_1128 x idx (ix2 n d)
      = x (ix2 (⟨min (idx (ix2 n (0 : Fin 1))).toInt.toNat 99, by omega⟩ : Fin 100) d) := by
  unfold Host.gather
  congr 1
  funext a
  refine Fin.ext ?_
  match a with
  | ⟨0, _⟩ =>
    -- the row axis: collapsed and start-indexed; no batching, no offset
    show GatherDims.start _ (ix2 n d) idx 0 + GatherDims.batchCoord _ (ix2 n d) 0 + GatherDims.offCoord _ (ix2 n d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100x128_S524288x1_S524288x128_1_0_n_n_0_1_1128.startIndexMap from
      List.mem_singleton.mpr rfl)]
    have hsi : gather_S100x128_S524288x1_S524288x128_1_0_n_n_0_1_1128.siIdx (ix2 n d)
        ⟨List.idxOf (0 : Fin 2) gather_S100x128_S524288x1_S524288x128_1_0_n_n_0_1_1128.startIndexMap,
          List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl
  | ⟨1, _⟩ =>
    -- the column axis: the one offset axis, read whole from 0
    show GatherDims.start _ (ix2 n d) idx 1 + GatherDims.batchCoord _ (ix2 n d) 1 + GatherDims.offCoord _ (ix2 n d) 1 = _
    rw [GatherDims.batchCoord_eq_zero _ _ _ List.not_mem_nil]
    have hs : GatherDims.start gather_S100x128_S524288x1_S524288x128_1_0_n_n_0_1_1128 (ix2 n d) idx 1 = 0 := by
      unfold GatherDims.start
      rw [dif_neg (by decide)]
    rw [hs]
    simp only [Nat.add_zero, Nat.zero_add]
    rfl

/-- The start index the gather reads for sample `n` is the label word itself: the reference adds 100 only to a
    negative label. -/
private theorem start_index_apply (x1 : (⟨S524288, .i32⟩ : BufTy).Contents (Elt Ideal)) (n : Fin 524288)
    (h : 0 ≤ (x1 (ix1 n)).toInt) :
    Read.val_main_v5 (F := Ideal) x1 (ix2 n (0 : Fin 1)) = x1 (ix1 n) := by
  rw [Read.val_main_v5_apply]
  have hi : Read.idx_main_v5 (ix2 n (0 : Fin 1)) = ix1 n := by
    funext a; match a with | ⟨0, _⟩ => rfl
  rw [hi, Read.val_main_v4_apply, Read.val_main_v1_apply, Read.val_main_v0_apply, Read.val_main_c_apply,
    cmpi_slt_zero_of_nonneg _ h, select_zero]

/-- The gathered centre of sample `n` at feature `d` is its class's row of the table. -/
private theorem centre_apply (x1 : (⟨S524288, .i32⟩ : BufTy).Contents (Elt Ideal))
    (x2 : (⟨S100x128, .f32⟩ : BufTy).Contents (Elt Ideal)) (n : Fin 524288) (d : Fin 128)
    (h : 0 ≤ (x1 (ix1 n)).toInt) :
    Read.val_main_v6 (F := Ideal) x1 x2 (ix2 n d) = rowAt x2 (cls (x1 (ix1 n))) d := by
  unfold Read.val_main_v6
  rw [gather_row_apply, rowAt_of_lt _ _ (cls_lt _)]
  refine congrArg (fun r => x2 (ix2 r d)) (Fin.ext ?_)
  show min (Read.val_main_v5 (F := Ideal) x1 (ix2 n (0 : Fin 1))).toInt.toNat 99 = cls (x1 (ix1 n))
  rw [start_index_apply x1 n h]
  rfl

/-- The reference's first result, at its one index, when no label is negative. -/
theorem ref_center_loss (x0 : (⟨S524288x128, .f32⟩ : BufTy).Contents (Elt Ideal)) (x1 : (⟨S524288, .i32⟩ : BufTy).Contents (Elt Ideal))
    (x2 : (⟨S100x128, .f32⟩ : BufTy).Contents (Elt Ideal)) (hlab : ∀ n : Fin 524288, 0 ≤ (x1 (ix1 n)).toInt) (i : S_.Idx) :
    Cert.ReferenceIdeal.Read.val_main_v10 (F := Ideal) x0 x1 x2 i = meanLoss x0 x1 x2 := by
  rw [Read.val_main_v10_apply, Read.val_main_v9_apply, Read.val_main_cst_apply, Read.val_main_cst_1_apply]
  simp only [Ideal.hostDivf_def, Ideal.ofBits_def, Ideal.ofBits_zero_f32, zero_add]
  rw [ofBits_two_pow_26, Ideal.div_coe (by norm_num)]
  unfold meanLoss
  -- the sum over every index of the squared differences is the double sum of the squared distances
  have hsum : (∑ j : S524288x128.Idx, Read.val_main_v8 (F := Ideal) x0 x1 x2 j)
      = ∑ n : Fin 524288, ∑ d : Fin 128, sqErr x0 x1 x2 n d := by
    rw [sum_idx2]
    refine Finset.sum_congr rfl fun n _ => Finset.sum_congr rfl fun d _ => ?_
    rw [Read.val_main_v8_apply, Read.val_main_v7_apply, centre_apply x1 x2 n d (hlab n)]
    simp only [Ideal.mulf_def, Ideal.subf_def]
    rfl
  rw [hsum]

end Cert.CenterLoss

end
-- ==== Proof.lean ====
/-
  The centre loss of 524288 samples in 128 features against 100 class centres, and the separation loss of the centres.

  Reference.  `mean_{n,d} (feat n d - centre (label n) d)²`, the label indexing the centres NumPy-style (a negative label
  `l` reads row `l + 100`, and the row number is then clamped into [0, 99]); and a hinge on the pairwise distances of
  the centres.

  Kernel.  The labels are clamped into [0, 99] first; the samples are cut into 64 tiles of 8192, two halves of 32
  tiles; a tile looks its centres up by multiplying a 0/1 row (label = lane number) into the centre table padded to 128
  rows, sums its squared distances, and adds that number into an accumulator that the half's first tile starts from zero
  and the half's last tile writes out; the host adds the two halves and multiplies by 2⁻²⁶.  The separation loss is
  computed on the host by the same operations as the reference's.

  For a label that is not negative both programs read the centre numbered `min label 99`; for a label in [-99, -1] they
  read different rows, so the equivalence is stated, and holds, for labels that are not negative (the precondition's
  added conjunct).  Over the extended reals a sum may be regrouped freely, `0 · x = 0` and `1 · x = x` hold for every
  `x`, and dividing by 2²⁶ is multiplying by 2⁻²⁶: no finiteness of the inputs is used.

  Modules: Spec (the class of a label, the squared distance, a tile's sum, the loss); TilePayload (what the kernel body
  stores, at an index); Pieces, Fold, OutArray (what the accumulator and the output array hold, tile by tile);
  Blocks, PaddedTable, TileSum (a tile's blocks as parts of the argument arrays); Labels (clamped label words; no
  label is negative under the precondition); Regroup (the sum by halves and tiles; the two scale literals); RefLoss
  (the reference's loss in closed form); KernelValue (the kernel program's run with both results named).
-/
import proofs.«410400_j68771016343846_3_alg».proof.Defs
import proofs.«410400_j68771016343846_3_alg».proof.Proof.Gen.Kernel
import proofs.«410400_j68771016343846_3_alg».proof.Proof.Gen.Kernel.Skeleton
import proofs.«410400_j68771016343846_3_alg».proof.Proof.Gen.Kernel.Launch
import proofs.«410400_j68771016343846_3_alg».proof.Proof.Gen.Kernel.Points
import proofs.«410400_j68771016343846_3_alg».proof.Proof.Gen.Kernel.Frame
import proofs.«410400_j68771016343846_3_alg».proof.Proof.Gen.KernelIdeal
import proofs.«410400_j68771016343846_3_alg».proof.Proof.Gen.KernelIdeal.Skeleton
import proofs.«410400_j68771016343846_3_alg».proof.Proof.Gen.KernelIdeal.Launch
import proofs.«410400_j68771016343846_3_alg».proof.Proof.Gen.KernelIdeal.Points
import proofs.«410400_j68771016343846_3_alg».proof.Proof.Gen.KernelIdeal.Frame
import proofs.«410400_j68771016343846_3_alg».proof.Proof.Gen.ReferenceIdeal
import proofs.«410400_j68771016343846_3_alg».proof.Proof.Gen.ReferenceIdeal.Run
import proofs.«410400_j68771016343846_3_alg».proof.Proof.Gen.ReferenceIdeal.Read
import proofs.«410400_j68771016343846_3_alg».proof.Proof.Gen.Pre_finite_inputs
import proofs.«410400_j68771016343846_3_alg».proof.Proof.KernelValue
import proofs.«410400_j68771016343846_3_alg».proof.Proof.RefLoss
import proofs.«410400_j68771016343846_3_alg».proof.Proof.Labels
import Idealize.ShloMosaic.Adequacy
import Idealize.ShloMosaic.Init

noncomputable section

namespace Cert.Proof

open Idealize.ShloMosaic Idealize.SL.Sem

/-- Both kernel programs run to the end without a fault and leave their arguments unchanged (the generated frames). -/
theorem frame_kernel : Cert.frame_Kernel := fun m ρ _ => Cert.Kernel.Gen.frame m ρ
theorem frame_kernelIdeal : Cert.frame_KernelIdeal := fun m ρ _ => Cert.KernelIdeal.Gen.frame m ρ

/-- So does the reference: its generated run, the results forgotten. -/
theorem frame_reference : Cert.frame_ReferenceIdeal := fun m ρ _ =>
  (θ_run Cert.ReferenceIdeal.defs _ _).mono (fun _ h c => (h c).2.2) (Cert.ReferenceIdeal.Value.run (F := Ideal) m ρ)

/-- From arguments that agree, with no label negative, the two programs end at the same two numbers: the centre loss
    `(Σ_{n,d} (feat n d - centre (min (label n) 99) d)²) · 2⁻²⁶` and the one separation term of the centres. -/
theorem algebraic : Cert.algebraic_KernelIdeal_ReferenceIdeal := by
  intro m ρ m' ρ' hpre hagree
  refine ⟨fun c => (fun _ => Cert.CenterLoss.meanLoss (Cert.CenterLoss.featArr m c) (Cert.CenterLoss.labArr m c) (Cert.CenterLoss.cenArr m c)),
    fun c => Cert.ReferenceIdeal.Read.val_main_v28 (F := Ideal) (Cert.CenterLoss.cenArr m c),
    Cert.CenterLoss.kernel_run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v10_eq, (hagree c).1, (hagree c).2.1, (hagree c).2.2]
    funext i
    exact Cert.CenterLoss.ref_center_loss _ _ _ (fun n => Cert.CenterLoss.labels_nonneg _ _ _ (hpre c) n) i
  · rw [Cert.ReferenceIdeal.Read.val_main_v28_eq, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
